-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S64x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x4 : Shape := ⟨3, ![32, 2048, 4]⟩
abbrev S32x32768x4 : Shape := ⟨3, ![32, 32768, 4]⟩
abbrev S4x64 : Shape := ⟨2, ![4, 64]⟩
abbrev S64 : Shape := ⟨1, ![64]⟩
abbrev S128x64 : Shape := ⟨2, ![128, 64]⟩
abbrev S64x4 : Shape := ⟨2, ![64, 4]⟩
abbrev S4 : Shape := ⟨1, ![4]⟩
abbrev S32x32768 : Shape := ⟨2, ![32, 32768]⟩
abbrev S_ : Shape := ⟨0, ![]⟩

class Facts : Prop where
  bcast_S_S32x2048x4 : S_.BroadcastsInDim S32x2048x4 (![] : Fin 0 → Fin S32x2048x4.rank)
  reducesTo_S32x2048x4_S_d0_1_2 : S32x2048x4.ReducesTo [0, 1, 2] S_
  h_S_ : 0 < S_.numel
  bcast_S_S32x32768x4 : S_.BroadcastsInDim S32x32768x4 (![] : Fin 0 → Fin S32x32768x4.rank)
  reducesTo_S32x32768x4_S_d0_1_2 : S32x32768x4.ReducesTo [0, 1, 2] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S32x32768 : S_.BroadcastsInDim S32x32768 (![] : Fin 0 → Fin S32x32768.rank)
  reducesTo_S32x32768_S_d0_1 : S32x32768.ReducesTo [0, 1] S_

variable [Facts]

def fn_part3 {F : FTy → Type} [FloatOps F] (main_v45 : IVec S_ 1) (main_v50 : IVec S32x32768 1) : IVec S_ 1 :=
  let main_c_19 : IVec S_ 1 := constantI S_ 1 1#1
  let main_v51 : IVec S_ 1 := (fun x v => Host.reduce IntOp.andi x v reducesTo_S32x32768_S_d0_1 h_S_) main_v50 main_c_19
  let main_v52 : IVec S_ 1 := andi main_v45 main_v51
  main_v52

def fn_part2 {F : FTy → Type} [FloatOps F] (main_arg7 : FVec F S4 .f32) (main_arg8 : IVec S32x32768 32) (main_arg9 : IVec S32x32768 32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_c_14 : IVec S_ 32 := constantI S_ 32 0#32
  let main_v39 : IVec S32x32768 32 := broadcastInDim S32x32768 ![] bcast_S_S32x32768 main_c_14
  let main_v40 : IVec S32x32768 1 := cmpi .sge main_arg8 main_v39
  let main_c_15 : IVec S_ 32 := constantI S_ 32 2048#32
  let main_v41 : IVec S32x32768 32 := broadcastInDim S32x32768 ![] bcast_S_S32x32768 main_c_15
  let main_v42 : IVec S32x32768 1 := cmpi .slt main_arg8 main_v41
  let main_v43 : IVec S32x32768 1 := andi main_v40 main_v42
  let main_c_16 : IVec S_ 1 := constantI S_ 1 1#1
  let main_v44 : IVec S_ 1 := (fun x v => Host.reduce IntOp.andi x v reducesTo_S32x32768_S_d0_1 h_S_) main_v43 main_c_16
  let main_v45 : IVec S_ 1 := andi main_v38 main_v44
  let main_c_17 : IVec S_ 32 := constantI S_ 32 0#32
  let main_v46 : IVec S32x32768 32 := broadcastInDim S32x32768 ![] bcast_S_S32x32768 main_c_17
  let main_v47 : IVec S32x32768 1 := cmpi .sge main_arg9 main_v46
  let main_c_18 : IVec S_ 32 := constantI S_ 32 2048#32
  let main_v48 : IVec S32x32768 32 := broadcastInDim S32x32768 ![] bcast_S_S32x32768 main_c_18
  let main_v49 : IVec S32x32768 1 := cmpi .slt main_arg9 main_v48
  let main_v50 : IVec S32x32768 1 := andi main_v47 main_v49
  fn_part3 (F := F) main_v45 main_v50

def fn_part1 {F : FTy → Type} [FloatOps F] (main_arg4 : FVec F S128x64 .f32) (main_arg5 : FVec F S64 .f32) (main_arg6 : FVec F S64x4 .f32) (main_arg7 : FVec F S4 .f32) (main_arg8 : IVec S32x32768 32) (main_arg9 : IVec S32x32768 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x4 .f32 := Host.absf main_arg6
  let main_cst_10 : FVec F S_ .f32 := constant S_ .f32 0x7F800000#32
  let main_v30 : FVec F S64x4 .f32 := broadcastInDim S64x4 ![] bcast_S_S64x4 main_cst_10
  let main_v31 : IVec S64x4 1 := cmpf .olt main_v29 main_v30
  let main_c_11 : IVec S_ 1 := constantI S_ 1 1#1
  let main_v32 : IVec S_ 1 := (fun x v => Host.reduce IntOp.andi x v reducesTo_S64x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x2048x4 .f32) (main_arg1 : FVec F S32x32768x4 .f32) (main_arg2 : FVec F S4x64 .f32) (main_arg3 : FVec F S64 .f32) (main_arg4 : FVec F S128x64 .f32) (main_arg5 : FVec F S64 .f32) (main_arg6 : FVec F S64x4 .f32) (main_arg7 : FVec F S4 .f32) (main_arg8 : IVec S32x32768 32) (main_arg9 : IVec S32x32768 32) : IVec S_ 1 :=
  let main_v0 : FVec F S32x2048x4 .f32 := Host.absf main_arg0
  let main_cst : FVec F S_ .f32 := constant S_ .f32 0x7F800000#32
  let main_v1 : FVec F S32x2048x4 .f32 := broadcastInDim S32x2048x4 ![] bcast_S_S32x2048x4 main_cst
  let main_v2 : IVec S32x2048x4 1 := cmpf .olt main_v0 main_v1
  let main_c : IVec S_ 1 := constantI S_ 1 1#1
  let main_v3 : IVec S_ 1 := (fun x v => Host.reduce IntOp.andi x v reducesTo_S32x2048x4_S_d0_1_2 h_S_) main_v2 main_c
  let main_v4 : FVec F S32x32768x4 .f32 := Host.absf main_arg1
  let main_cst_0 : FVec F S_ .f32 := constant S_ .f32 0x7F800000#32
  let main_v5 : FVec F S32x32768x4 .f32 := broadcastInDim S32x32768x4 ![] bcast_S_S32x32768x4 main_cst_0
  let main_v6 : IVec S32x32768x4 1 := cmpf .olt main_v4 main_v5
  let main_c_1 : IVec S_ 1 := constantI S_ 1 1#1
  let main_v7 : IVec S_ 1 := (fun x v => Host.reduce IntOp.andi x v reducesTo_S32x32768x4_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S32x2048x4 : Shape := ⟨3, ![32, 2048, 4]⟩
abbrev S32x32768x4 : Shape := ⟨3, ![32, 32768, 4]⟩
abbrev S4x64 : Shape := ⟨2, ![4, 64]⟩
abbrev S64 : Shape := ⟨1, ![64]⟩
abbrev S128x64 : Shape := ⟨2, ![128, 64]⟩
abbrev S64x4 : Shape := ⟨2, ![64, 4]⟩
abbrev S4 : Shape := ⟨1, ![4]⟩
abbrev S32x32768 : Shape := ⟨2, ![32, 32768]⟩
abbrev S_ : Shape := ⟨0, ![]⟩
abbrev S32x1x32768 : Shape := ⟨3, ![32, 1, 32768]⟩
abbrev S32x4x2048 : Shape := ⟨3, ![32, 4, 2048]⟩
abbrev S64x1 : Shape := ⟨2, ![64, 1]⟩
abbrev S64x128 : Shape := ⟨2, ![64, 128]⟩
abbrev S64x64 : Shape := ⟨2, ![64, 64]⟩
abbrev S64x2 : Shape := ⟨2, ![64, 2]⟩
abbrev S2x64 : Shape := ⟨2, ![2, 64]⟩
abbrev S2 : Shape := ⟨1, ![2]⟩
abbrev S2x1 : Shape := ⟨2, ![2, 1]⟩
abbrev S32x4x32768 : Shape := ⟨3, ![32, 4, 32768]⟩
abbrev S1x4x2048 : Shape := ⟨3, ![1, 4, 2048]⟩
abbrev S1x1x2048 : Shape := ⟨3, ![1, 1, 2048]⟩
abbrev S64x2048 : Shape := ⟨2, ![64, 2048]⟩
abbrev S4x2048 : Shape := ⟨2, ![4, 2048]⟩
abbrev S1x2048 : Shape := ⟨2, ![1, 2048]⟩
abbrev S2048x2048 : Shape := ⟨2, ![2048, 2048]⟩
abbrev S2x2048 : Shape := ⟨2, ![2, 2048]⟩
abbrev S1x2x2048 : Shape := ⟨3, ![1, 2, 2048]⟩

abbrev nBuf : Space → Nat
  | .hbm => 42
  | .vmem => 19
  | .smem => 0
  | _ => 0

abbrev bufTy : (tb : Table) → Fin (tcTables nBuf tb) → BufTy
  | .hbm, ⟨0, _⟩ => ⟨S32x2048x4, .f32⟩
  | .hbm, ⟨1, _⟩ => ⟨S32x32768x4, .f32⟩
  | .hbm, ⟨2, _⟩ => ⟨S4x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S32x32768, .i32⟩
  | .hbm, ⟨9, _⟩ => ⟨S32x32768, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x32768, .i32⟩
  | .hbm, ⟨14, _⟩ => ⟨S32x32768, .i32⟩
  | .hbm, ⟨15, _⟩ => ⟨S_, .i32⟩
  | .hbm, ⟨16, _⟩ => ⟨S32x32768, .i32⟩
  | .hbm, ⟨17, _⟩ => ⟨S32x32768, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32x32768, .i32⟩
  | .hbm, ⟨22, _⟩ => ⟨S32x32768, .i32⟩
  | .hbm, ⟨23, _⟩ => ⟨S_, .i32⟩
  | .hbm, ⟨24, _⟩ => ⟨S32x32768, .i32⟩
  | .hbm, ⟨25, _⟩ => ⟨S32x32768, .i32⟩
  | .hbm, ⟨26, _⟩ => ⟨S32x1x32768, .i32⟩
  | .hbm, ⟨27, _⟩ => ⟨S32x1x32768, .i32⟩
  | .hbm, ⟨28, _⟩ => ⟨S32x4x2048, .f32⟩
  | .hbm, ⟨29, _⟩ => ⟨S64x4, .f32⟩
  | .hbm, ⟨30, _⟩ => ⟨S64x1, .f32⟩
  | .hbm, ⟨31, _⟩ => ⟨S64x128, .f32⟩
  | .hbm, ⟨32, _⟩ => ⟨S64x64, .f32⟩
  | .hbm, ⟨33, _⟩ => ⟨S64x64, .f32⟩
  | .hbm, ⟨34, _⟩ => ⟨S64x1, .f32⟩
  | .hbm, ⟨35, _⟩ => ⟨S64x2, .f32⟩
  | .hbm, ⟨36, _⟩ => ⟨S2x64, .f32⟩
  | .hbm, ⟨37, _⟩ => ⟨S2, .f32⟩
  | .hbm, ⟨38, _⟩ => ⟨S2x1, .f32⟩
  | .hbm, ⟨39, _⟩ => ⟨S32x4x32768, .f32⟩
  | .hbm, ⟨40, _⟩ => ⟨S32x4x32768, .f32⟩
  | .hbm, ⟨41, _⟩ => ⟨S32x32768x4, .f32⟩
  | .local _ .vmem, ⟨0, _⟩ => ⟨S1x4x2048, .f32⟩
  | .local _ .vmem, ⟨1, _⟩ => ⟨S1x4x2048, .f32⟩
  | .local _ .vmem, ⟨2, _⟩ => ⟨S64x4, .f32⟩
  | .local _ .vmem, ⟨3, _⟩ => ⟨S64x1, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x4x2048, .f32⟩
  | .local _ .vmem, ⟨9, _⟩ => ⟨S1x4x2048, .f32⟩
  | .local _ .vmem, ⟨10, _⟩ => ⟨S64x64, .f32⟩
  | .local _ .vmem, ⟨11, _⟩ => ⟨S64x64, .f32⟩
  | .local _ .vmem, ⟨12, _⟩ => ⟨S64x1, .f32⟩
  | .local _ .vmem, ⟨13, _⟩ => ⟨S2x64, .f32⟩
  | .local _ .vmem, ⟨14, _⟩ => ⟨S2x1, .f32⟩
  | .local _ .vmem, ⟨15, _⟩ => ⟨S1x4x2048, .f32⟩
  | .local _ .vmem, ⟨16, _⟩ => ⟨S1x4x2048, .f32⟩
  | .local _ .vmem, ⟨17, _⟩ => ⟨S64x2048, .bf16⟩
  | .local _ .vmem, ⟨18, _⟩ => ⟨S64x2048, .bf16⟩
  | _, _ => ⟨S32x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bcast_S_S32x32768 : S_.BroadcastsInDim S32x32768 (![] : Fin 0 → Fin S32x32768.rank)
  bcast_S32x32768_S32x1x32768_0_2 : S32x32768.BroadcastsInDim S32x1x32768 (![0, 2] : Fin 2 → Fin S32x1x32768.rank)
  transposes_S32x2048x4_S32x4x2048_0_2_1 : S32x2048x4.Transposes [0, 2, 1] S32x4x2048
  transposes_S4x64_S64x4_1_0 : S4x64.Transposes [1, 0] S64x4
  shapeCasts_S64_S64x1 : S64.ShapeCasts S64x1
  transposes_S128x64_S64x128_1_0 : S128x64.Transposes [1, 0] S64x128
  slices_S64x128_S64x64_0_0 : S64x128.Slices ![0, 0] S64x64
  slices_S64x128_S64x64_0_64 : S64x128.Slices ![0, 64] S64x64
  slices_S64x4_S64x2_0_2 : S64x4.Slices ![0, 2] S64x2
  transposes_S64x2_S2x64_1_0 : S64x2.Transposes [1, 0] S2x64
  slices_S4_S2_2 : S4.Slices ![2] S2
  shapeCasts_S2_S2x1 : S2.ShapeCasts S2x1
  transposes_S32x32768x4_S32x4x32768_0_2_1 : S32x32768x4.Transposes [0, 2, 1] S32x4x32768
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S2048x2048_d0_w32 : S2048x2048.Iotas .tc 32 [0]
  broadcasts_S1x2048_S2048x2048 : S1x2048.Broadcasts S2048x2048
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x2048 : S2x1.Broadcasts S2x2048
  inb_S1x4x2048_S1x2x2048_0_0_0 : ∀ a, (![0, 0, 0] : Fin 3 → Nat) a + S1x2x2048.size a ≤ S1x4x2048.size a
  h_S1x2x2048 : 0 < S1x2x2048.numel
  shapeCasts_S1x2x2048_S2x2048 : S1x2x2048.ShapeCasts S2x2048
  concatenates_S2x2048_S2x2048_S4x2048_d0 : Shape.Concatenates [S2x2048, S2x2048] S4x2048 0
  shapeCasts_S4x2048_S1x4x2048 : S4x2048.ShapeCasts S1x4x2048
  transposes_S32x4x32768_S32x32768x4_0_2_1 : S32x4x32768.Transposes [0, 2, 1] S32x32768x4
  dot_S64x4_S4x2048_S64x2048_1_0_0_1_n_n_wf : DotDims.WF S64x4 S4x2048 S64x2048 [1] [0] [0] [1] [] []
  dot_S64x2048_S2048x2048_S64x2048_1_0_0_1_n_n_wf : DotDims.WF S64x2048 S2048x2048 S64x2048 [1] [0] [0] [1] [] []
  dot_S64x64_S64x2048_S64x2048_1_0_0_1_n_n_wf : DotDims.WF S64x64 S64x2048 S64x2048 [1] [0] [0] [1] [] []
  dot_S2x64_S64x2048_S2x2048_1_0_0_1_n_n_wf : DotDims.WF S2x64 S64x2048 S2x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x2048.size a ≤ S32x4x2048.size a
  hwx0_0 : ∀ i : grid0.Coords, EltTy.bits .f32 = 32 ∨ (Rect.block (s := S32x4x2048) S1x4x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x32768.size a
  hwx0_3 : ∀ i : grid0.Coords, EltTy.bits .i32 = 32 ∨ (Rect.block (s := S32x1x32768) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S32x1x32768.size a
  hwx0_4 : ∀ i : grid0.Coords, EltTy.bits .i32 = 32 ∨ (Rect.block (s := S32x1x32768) S1x1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x2048.size a ≤ S32x4x32768.size a
  hwx0_5 : ∀ i : grid0.Coords, EltTy.bits .f32 = 32 ∨ (Rect.block (s := S32x4x32768) S1x4x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x64.size a ≤ S2x64.size a
  hwx0_9 : ∀ i : grid0.Coords, EltTy.bits .f32 = 32 ∨ (Rect.block (s := S2x64) S2x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x1.size a ≤ S2x1.size a
  hwx0_10 : ∀ i : grid0.Coords, EltTy.bits .f32 = 32 ∨ (Rect.block (s := S2x1) S2x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4x2048.size a ≤ S32x4x32768.size a
  hwx0_11 : ∀ i : grid0.Coords, EltTy.bits .f32 = 32 ∨ (Rect.block (s := S32x4x32768) S1x4x2048.size (cc0_transform_11 i) (hinb0_11 i)).WholeWords (EltTy.packing .f32)

variable [Facts₀]

def dot_S64x4_S4x2048_S64x2048_1_0_0_1_n_n : DotDims S64x4 S4x2048 S64x2048 where
  lhsContracting := [1]
  rhsContracting := [0]
  lhsNonContracting := [0]
  rhsNonContracting := [1]
  lhsBatch := []
  rhsBatch := []
  wf := dot_S64x4_S4x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S2x64_S64x2048_S2x2048_1_0_0_1_n_n : DotDims S2x64 S64x2048 S2x2048 where
  lhsContracting := [1]
  rhsContracting := [0]
  lhsNonContracting := [0]
  rhsNonContracting := [1]
  lhsBatch := []
  rhsBatch := []
  wf := dot_S2x64_S64x2048_S2x2048_1_0_0_1_n_n_wf

abbrev win0_0 : Pipeline.Window sig grid0 :=
  Pipeline.Window.ofSpec (Memref.whole main_v4) S1x4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S2x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S2x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x4x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x2048x4 : Shape := ⟨3, ![32, 2048, 4]⟩
abbrev S32x32768x4 : Shape := ⟨3, ![32, 32768, 4]⟩
abbrev S4x64 : Shape := ⟨2, ![4, 64]⟩
abbrev S64 : Shape := ⟨1, ![64]⟩
abbrev S128x64 : Shape := ⟨2, ![128, 64]⟩
abbrev S64x4 : Shape := ⟨2, ![64, 4]⟩
abbrev S4 : Shape := ⟨1, ![4]⟩
abbrev S32x32768 : Shape := ⟨2, ![32, 32768]⟩
abbrev S32x2048x64 : Shape := ⟨3, ![32, 2048, 64]⟩
abbrev S1x1x64 : Shape := ⟨3, ![1, 1, 64]⟩
abbrev S32x32768x1 : Shape := ⟨3, ![32, 32768, 1]⟩
abbrev S_ : Shape := ⟨0, ![]⟩
abbrev S1 : Shape := ⟨1, ![1]⟩
abbrev S1x1x1 : Shape := ⟨3, ![1, 1, 1]⟩
abbrev S32x32768x64 : Shape := ⟨3, ![32, 32768, 64]⟩
abbrev S32x32768x128 : Shape := ⟨3, ![32, 32768, 128]⟩
abbrev S1x1x4 : Shape := ⟨3, ![1, 1, 4]⟩
abbrev S32x32768x2 : Shape := ⟨3, ![32, 32768, 2]⟩

abbrev nBuf : Space → Nat
  | .hbm => 75
  | .vmem => 0
  | .smem => 0
  | _ => 0

abbrev bufTy : (tb : Table) → Fin (tcTables nBuf tb) → BufTy
  | .hbm, ⟨0, _⟩ => ⟨S32x2048x4, .f32⟩
  | .hbm, ⟨1, _⟩ => ⟨S32x32768x4, .f32⟩
  | .hbm, ⟨2, _⟩ => ⟨S4x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S32x32768, .i32⟩
  | .hbm, ⟨9, _⟩ => ⟨S32x32768, .i32⟩
  | .hbm, ⟨10, _⟩ => ⟨S32x2048x64, .f32⟩
  | .hbm, ⟨11, _⟩ => ⟨S1x1x64, .f32⟩
  | .hbm, ⟨12, _⟩ => ⟨S32x2048x64, .f32⟩
  | .hbm, ⟨13, _⟩ => ⟨S32x2048x64, .f32⟩
  | .hbm, ⟨14, _⟩ => ⟨S32x32768x1, .i32⟩
  | .hbm, ⟨15, _⟩ => ⟨S_, .i32⟩
  | .hbm, ⟨16, _⟩ => ⟨S32x32768x1, .i32⟩
  | .hbm, ⟨17, _⟩ => ⟨S32x32768x1, .i1⟩
  | .hbm, ⟨18, _⟩ => ⟨S_, .i32⟩
  | .hbm, ⟨19, _⟩ => ⟨S32x32768x1, .i32⟩
  | .hbm, ⟨20, _⟩ => ⟨S32x32768x1, .i32⟩
  | .hbm, ⟨21, _⟩ => ⟨S32x32768x1, .i32⟩
  | .hbm, ⟨22, _⟩ => ⟨S1, .i32⟩
  | .hbm, ⟨23, _⟩ => ⟨S_, .i32⟩
  | .hbm, ⟨24, _⟩ => ⟨S32x32768x1, .i32⟩
  | .hbm, ⟨25, _⟩ => ⟨S32x32768x1, .i1⟩
  | .hbm, ⟨26, _⟩ => ⟨S1x1x1, .i32⟩
  | .hbm, ⟨27, _⟩ => ⟨S32x32768x1, .i32⟩
  | .hbm, ⟨28, _⟩ => ⟨S32x32768x1, .i1⟩
  | .hbm, ⟨29, _⟩ => ⟨S32x32768x1, .i1⟩
  | .hbm, ⟨30, _⟩ => ⟨S_, .i1⟩
  | .hbm, ⟨31, _⟩ => ⟨S32x32768, .i1⟩
  | .hbm, ⟨32, _⟩ => ⟨S32x32768x64, .f32⟩
  | .hbm, ⟨33, _⟩ => ⟨S32x32768x64, .i1⟩
  | .hbm, ⟨34, _⟩ => ⟨S_, .f32⟩
  | .hbm, ⟨35, _⟩ => ⟨S32x32768x64, .f32⟩
  | .hbm, ⟨36, _⟩ => ⟨S32x32768x64, .f32⟩
  | .hbm, ⟨37, _⟩ => ⟨S32x32768x1, .i32⟩
  | .hbm, ⟨38, _⟩ => ⟨S_, .i32⟩
  | .hbm, ⟨39, _⟩ => ⟨S32x32768x1, .i32⟩
  | .hbm, ⟨40, _⟩ => ⟨S32x32768x1, .i1⟩
  | .hbm, ⟨41, _⟩ => ⟨S_, .i32⟩
  | .hbm, ⟨42, _⟩ => ⟨S32x32768x1, .i32⟩
  | .hbm, ⟨43, _⟩ => ⟨S32x32768x1, .i32⟩
  | .hbm, ⟨44, _⟩ => ⟨S32x32768x1, .i32⟩
  | .hbm, ⟨45, _⟩ => ⟨S1, .i32⟩
  | .hbm, ⟨46, _⟩ => ⟨S_, .i32⟩
  | .hbm, ⟨47, _⟩ => ⟨S32x32768x1, .i32⟩
  | .hbm, ⟨48, _⟩ => ⟨S32x32768x1, .i1⟩
  | .hbm, ⟨49, _⟩ => ⟨S1x1x1, .i32⟩
  | .hbm, ⟨50, _⟩ => ⟨S32x32768x1, .i32⟩
  | .hbm, ⟨51, _⟩ => ⟨S32x32768x1, .i1⟩
  | .hbm, ⟨52, _⟩ => ⟨S32x32768x1, .i1⟩
  | .hbm, ⟨53, _⟩ => ⟨S_, .i1⟩
  | .hbm, ⟨54, _⟩ => ⟨S32x32768, .i1⟩
  | .hbm, ⟨55, _⟩ => ⟨S32x32768x64, .f32⟩
  | .hbm, ⟨56, _⟩ => ⟨S32x32768x64, .i1⟩
  | .hbm, ⟨57, _⟩ => ⟨S_, .f32⟩
  | .hbm, ⟨58, _⟩ => ⟨S32x32768x64, .f32⟩
  | .hbm, ⟨59, _⟩ => ⟨S32x32768x64, .f32⟩
  | .hbm, ⟨60, _⟩ => ⟨S32x32768x128, .f32⟩
  | .hbm, ⟨61, _⟩ => ⟨S32x32768x64, .f32⟩
  | .hbm, ⟨62, _⟩ => ⟨S1x1x64, .f32⟩
  | .hbm, ⟨63, _⟩ => ⟨S32x32768x64, .f32⟩
  | .hbm, ⟨64, _⟩ => ⟨S32x32768x64, .f32⟩
  | .hbm, ⟨65, _⟩ => ⟨S_, .f32⟩
  | .hbm, ⟨66, _⟩ => ⟨S32x32768x64, .f32⟩
  | .hbm, ⟨67, _⟩ => ⟨S32x32768x64, .f32⟩
  | .hbm, ⟨68, _⟩ => ⟨S32x32768x4, .f32⟩
  | .hbm, ⟨69, _⟩ => ⟨S1x1x4, .f32⟩
  | .hbm, ⟨70, _⟩ => ⟨S32x32768x4, .f32⟩
  | .hbm, ⟨71, _⟩ => ⟨S32x32768x4, .f32⟩
  | .hbm, ⟨72, _⟩ => ⟨S32x32768x2, .f32⟩
  | .hbm, ⟨73, _⟩ => ⟨S32x32768x2, .f32⟩
  | .hbm, ⟨74, _⟩ => ⟨S32x32768x4, .f32⟩
  | _, _ => ⟨S32x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v5 : Ref sig .tc := ⟨.hbm, 36, rfl⟩
abbrev main_v6 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_c_2 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_c_3 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_call2_cst : Ref sig .tc := ⟨.hbm, 65, rfl⟩
abbrev main_call2_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x2048x64_0_1_2 : S1x1x64.BroadcastsInDim S32x2048x64 (![0, 1, 2] : Fin 3 → Fin S32x2048x64.rank)
  bcast_S32x32768_S32x32768x1_0_1 : S32x32768.BroadcastsInDim S32x32768x1 (![0, 1] : Fin 2 → Fin S32x32768x1.rank)
  bcast_S_S32x32768x1 : S_.BroadcastsInDim S32x32768x1 (![] : Fin 0 → Fin S32x32768x1.rank)
  bcast_S1_S1x1x1_2 : S1.BroadcastsInDim S1x1x1 (![2] : Fin 1 → Fin S1x1x1.rank)
  bcast_S1x1x1_S32x32768x1_0_1_2 : S1x1x1.BroadcastsInDim S32x32768x1 (![0, 1, 2] : Fin 3 → Fin S32x32768x1.rank)
  reducesTo_S32x32768x1_S32x32768_d2 : S32x32768x1.ReducesTo [2] S32x32768
  h_S_ : 0 < S_.numel
  bcast_S32x32768_S32x32768x64_0_1 : S32x32768.BroadcastsInDim S32x32768x64 (![0, 1] : Fin 2 → Fin S32x32768x64.rank)
  bcast_S_S32x32768x64 : S_.BroadcastsInDim S32x32768x64 (![] : Fin 0 → Fin S32x32768x64.rank)
  concatenates_S32x32768x64_S32x32768x64_S32x32768x128_d2 : Shape.Concatenates [S32x32768x64, S32x32768x64] S32x32768x128 2
  bcast_S1x1x64_S32x32768x64_0_1_2 : S1x1x64.BroadcastsInDim S32x32768x64 (![0, 1, 2] : Fin 3 → Fin S32x32768x64.rank)
  bcast_S4_S1x1x4_2 : S4.BroadcastsInDim S1x1x4 (![2] : Fin 1 → Fin S1x1x4.rank)
  bcast_S1x1x4_S32x32768x4_0_1_2 : S1x1x4.BroadcastsInDim S32x32768x4 (![0, 1, 2] : Fin 3 → Fin S32x32768x4.rank)
  slices_S32x32768x4_S32x32768x2_0_0_0 : S32x32768x4.Slices ![0, 0, 0] S32x32768x2
  slices_S32x32768x4_S32x32768x2_0_0_2 : S32x32768x4.Slices ![0, 0, 2] S32x32768x2
  concatenates_S32x32768x2_S32x32768x2_S32x32768x4_d2 : Shape.Concatenates [S32x32768x2, S32x32768x2] S32x32768x4 2
  dot_S32x2048x4_S4x64_S32x2048x64_2_0_01_1_n_n_wf : DotDims.WF S32x2048x4 S4x64 S32x2048x64 [2] [0] [0, 1] [1] [] []
  gather_S32x2048x64_S32x32768x1_S32x32768x64_2_1_0_0_1_2_1164_wf : GatherDims.WF S32x2048x64 S32x32768x1 S32x32768x64 [2] [1] [0] [1] [0] 2 ![1, 1, 64]
  dot_S32x32768x128_S128x64_S32x32768x64_2_0_01_1_n_n_wf : DotDims.WF S32x32768x128 S128x64 S32x32768x64 [2] [0] [0, 1] [1] [] []
  dot_S32x32768x64_S64x4_S32x32768x4_2_0_01_1_n_n_wf : DotDims.WF S32x32768x64 S64x4 S32x32768x4 [2] [0] [0, 1] [1] [] []

variable [Facts₀]

def dot_S32x2048x4_S4x64_S32x2048x64_2_0_01_1_n_n : DotDims S32x2048x4 S4x64 S32x2048x64 where
  lhsContracting := [2]
  rhsContracting := [0]
  lhsNonContracting := [0, 1]
  rhsNonContracting := [1]
  lhsBatch := []
  rhsBatch := []
  wf := dot_S32x2048x4_S4x64_S32x2048x64_2_0_01_1_n_n_wf
def gather_S32x2048x64_S32x32768x1_S32x32768x64_2_1_0_0_1_2_1164 : GatherDims S32x2048x64 S32x32768x1 S32x32768x64 where
  offsetDims := [2]
  collapsedSliceDims := [1]
  operandBatchingDims := [0]
  startIndicesBatchingDims := [0]
  startIndexMap := [1]
  indexVectorDim := 2
  sliceSizes := ![1, 1, 64]
  wf := gather_S32x2048x64_S32x32768x1_S32x32768x64_2_1_0_0_1_2_1164_wf
def dot_S32x32768x128_S128x64_S32x32768x64_2_0_01_1_n_n : DotDims S32x32768x128 S128x64 S32x32768x64 where
  lhsContracting := [2]
  rhsContracting := [0]
  lhsNonContracting := [0, 1]
  rhsNonContracting := [1]
  lhsBatch := []
  rhsBatch := []
  wf := dot_S32x32768x128_S128x64_S32x32768x64_2_0_01_1_n_n_wf
def dot_S32x32768x64_S64x4_S32x32768x4_2_0_01_1_n_n : DotDims S32x32768x64 S64x4 S32x32768x4 where
  lhsContracting := [2]
  rhsContracting := [0]
  lhsNonContracting := [0, 1]
  rhsNonContracting := [1]
  lhsBatch := []
  rhsBatch := []
  wf := dot_S32x32768x64_S64x4_S32x32768x4_2_0_01_1_n_n_wf

class Facts : Prop extends Facts₀ where

variable [Facts]
-- ==== Proof.Pieces.lean ====
/-
  What each case of the kernel body leaves, as values.

  The body has two cases. At a grid point that starts a batch (tile 0 of the batch) it first computes the batch's node
  embedding from the transposed weight block x1, the transposed node block x0 and the bias column x2, keeps its "hi"
  and "lo" halves in the two carried buffers, and then scores the tile's edges from those halves. At every other point
  it scores the tile's edges from the halves the point before left (xs0, xs1) and leaves the carried buffers alone.
  In both cases the output block is one store of the scoring payload: the second layer over the first layer over the
  one-hot gather, joined under the first two rows of the tile's line-parameter block x5.
-/
import proofs.«419284_j6141803233663_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.EdgeHead

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- Rows 0 and 1 of a [1, 4, 2048] block: what the body's load of the line-parameter block's first two rows reads. -/
abbrev topRows (x5 : Vec F S1x4x2048 .f32) : Vec F S1x2x2048 .f32 :=
  View.ld x5 (Rect.unit (s := S1x4x2048) ![0, 0, 0] ![1, 2, 2048] inb_S1x4x2048_S1x2x2048_0_0_0)

/-- The scoring payload of a tile: from the carried halves hi and lo, the tile's source and destination words x3 and
    x4, the two first-layer weight blocks x6 and x7, the first-layer bias x8, the second layer x9 and x10, and the
    tile's line-parameter block x5. -/
abbrev score (hi lo : Vec F S64x2048 .bf16) (x3 x4 : Vec F S1x1x2048 .i32) (x5 : Vec F S1x4x2048 .f32)
    (x6 x7 : Vec F S64x64 .f32) (x8 : Vec F S64x1 .f32) (x9 : Vec F S2x64 .f32) (x10 : Vec F S2x1 .f32) : Vec F S1x4x2048 .f32 :=
  k0_pay1 (k0_pay5 hi lo x3 x4 x6 x7) x8 x9 x10 (topRows x5)

/-- A later point: the output block is the scoring payload over the carried halves. -/
theorem out_later (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : ¬cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) (xs0 xs1 : Vec F S64x2048 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = score xs0 xs1 x3 x4 x5 x6 x7 x8 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  sl_unfold_words
  rw [View.canon_unit_zero zeros3]
  simp only [View.readAt_eq_ld, harg5.read_unread, harg6.read_unread, harg7.read_unread, harg8.read_unread, harg9.read_unread,
    harg10.read_unread, harg11.read_unread, harg12.read_unread, harg14.read_unread, harg15.read_unread,
    View.ld_unit_zero (S := S1x1x2048) zeros3, View.ld_unit_zero (S := S64x2048) zeros2, View.ld_unit_zero (S := S64x64) zeros2,
    View.ld_unit_zero (S := S64x1) zeros2, View.ld_unit_zero (S := S2x64) zeros2, View.ld_unit_zero (S := S2x1) zeros2]

/-- A later point leaves the carried hi half as the point before left it. -/
theorem hi_later (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : ¬cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) (xs0 xs1 : Vec F S64x2048 .bf16) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = xs0 := rfl

/-- A later point leaves the carried lo half as the point before left it. -/
theorem lo_later (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : ¬cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) (xs0 xs1 : Vec F S64x2048 .bf16) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = xs1 := rfl

/-- A batch's first point writes the embedding's hi half into the first carried buffer. -/
theorem hi_first (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay3 x1 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero zeros2]
  simp only [View.readAt_eq_ld, harg2.read_unread, harg3.read_unread, harg4.read_unread,
    View.ld_unit_zero (S := S1x4x2048) zeros3, View.ld_unit_zero (S := S64x4) zeros2, View.ld_unit_zero (S := S64x1) zeros2]

/-- A batch's first point writes the embedding's lo half into the second carried buffer. -/
theorem lo_first (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay4 x1 x0 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero zeros2]
  simp only [View.readAt_eq_ld, harg2.read_unread, harg3.read_unread, harg4.read_unread,
    View.ld_unit_zero (S := S1x4x2048) zeros3, View.ld_unit_zero (S := S64x4) zeros2, View.ld_unit_zero (S := S64x1) zeros2]

/-- A batch's first point: the output block is the scoring payload over the halves it has just written. -/
theorem out_first (c : Dev nD) (i : grid0.Coords) (arg2 : Memref sig .tc .vmem S1x4x2048 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x4x2048 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S2x64 .f32) (harg11 : arg11.IsWhole) (arg12 : Memref sig .tc .vmem S2x1 .f32) (harg12 : arg12.IsWhole) (arg13 : Memref sig .tc .vmem S1x4x2048 .f32) (harg13 : arg13.IsWhole) (arg14 : Memref sig .tc .vmem S64x2048 .bf16) (harg14 : arg14.IsWhole) (arg15 : Memref sig .tc .vmem S64x2048 .bf16) (harg15 : arg15.IsWhole) (hc0 : cond0_0 i) (x0 : Vec F S1x4x2048 .f32) (x1 : Vec F S64x4 .f32) (x2 : Vec F S64x1 .f32) (x3 : Vec F S1x1x2048 .i32) (x4 : Vec F S1x1x2048 .i32) (x5 : Vec F S1x4x2048 .f32) (x6 : Vec F S64x64 .f32) (x7 : Vec F S64x64 .f32) (x8 : Vec F S64x1 .f32) (x9 : Vec F S2x64 .f32) (x10 : Vec F S2x1 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = score (k0_pay3 x1 x0 x2) (k0_pay4 x1 x0 x2) x3 x4 x5 x6 x7 x8 x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero zeros3]
  simp only [View.readAt_eq_ld, harg2.read_unread, harg3.read_unread, harg4.read_unread, harg5.read_unread, harg6.read_unread, harg7.read_unread, harg8.read_unread, harg9.read_unread,
    harg10.read_unread, harg11.read_unread, harg12.read_unread, harg14.read_unread, harg15.read_unread,
    View.ld_unit_zero (S := S1x4x2048) zeros3, View.ld_unit_zero (S := S64x4) zeros2,
    View.ld_unit_zero (S := S1x1x2048) zeros3, View.ld_unit_zero (S := S64x2048) zeros2, View.ld_unit_zero (S := S64x64) zeros2,
    View.ld_unit_zero (S := S64x1) zeros2, View.ld_unit_zero (S := S2x64) zeros2, View.ld_unit_zero (S := S2x1) zeros2,
    View.readCov_unit_zero (S := S64x2048) _ zeros2]

end Cert.EdgeHead

end
-- ==== Proof.EdgeSpec.lean ====
/-
  The function both programs compute, written once over the ten argument arrays.

  A graph batch `b` has 2048 nodes with 4 raw features each, and 32768 candidate edges, each naming a source
  node and a destination node. Every node is embedded into 64 features by one affine map,
      feat b n d = (sum over i < 4 of  W_embed[i, d] * pred_node[b, n, i]) + b_embed[d].
  An edge `l` with end points s and t is scored by a two-layer head on the pair (feat b s, feat b t): the first layer's
  128 x 64 weight splits into the 64 rows that meet the source's features and the 64 rows that meet the
  destination's, so hidden unit d is
      hid d = max ((sum over e < 64 of W1[e, d] * feat b s e) + (sum over e < 64 of W1[64 + e, d] * feat b t e) + b1[d]) 0,
  and output column o of the head is (sum over d < 64 of W2[d, o] * hid d) + b2[o]. The result keeps columns 0 and 1
  of `line_param` and takes columns 2 and 3 from the head.

  The end points are 32-bit words. A word names the node whose number is its unsigned value, reduced mod 2048 so
  that the function is total; for a word in [0, 2048) that is the word's value itself.
-/
import Idealize.ShloMosaic.PureOps.Ideal
import Idealize.ShloMosaic.Lib.ValueIdx

noncomputable section

open scoped BigOperators

namespace Cert.EdgeHead

open Idealize.ShloMosaic Idealize.ShloMosaic.ValueIdx

/-- The node a 32-bit index word names. -/
def nodeOf (w : BitVec 32) : Fin 2048 := ⟨w.toNat % 2048, Nat.mod_lt _ (by decide)⟩

theorem nodeOf_val_of_lt {w : BitVec 32} (h : w.toNat < 2048) : (nodeOf w).val = w.toNat := Nat.mod_eq_of_lt h

/-- The embedding of node `n` of batch `b`, feature `d`. -/
def feat (pn : FVec Ideal ⟨3, ![32, 2048, 4]⟩ .f32) (We : FVec Ideal ⟨2, ![4, 64]⟩ .f32) (be : FVec Ideal ⟨1, ![64]⟩ .f32)
    (b : Fin 32) (n : Fin 2048) (d : Fin 64) : EReal :=
  (∑ i : Fin 4, We (ix2 i d) * pn (ix3 b n i)) + be (ix1 d)

/-- Row `64 + e` of the first layer's weight: the rows that meet the destination's features. -/
def hiRow (e : Fin 64) : Fin 128 := ⟨64 + e.val, by omega⟩
/-- Row `e` of the first layer's weight: the rows that meet the source's features. -/
def loRow (e : Fin 64) : Fin 128 := ⟨e.val, by omega⟩

/-- Hidden unit `d` of the head on the pair of feature vectors `fs` (source) and `ft` (destination). -/
def hid (W1 : FVec Ideal ⟨2, ![128, 64]⟩ .f32) (b1 : FVec Ideal ⟨1, ![64]⟩ .f32) (fs ft : Fin 64 → EReal) (d : Fin 64) : EReal :=
  max (((∑ e : Fin 64, W1 (ix2 (loRow e) d) * fs e) + (∑ e : Fin 64, W1 (ix2 (hiRow e) d) * ft e)) + b1 (ix1 d)) 0

/-- Column `o` of the head's output on hidden vector `h`. -/
def headOut (W2 : FVec Ideal ⟨2, ![64, 4]⟩ .f32) (b2 : FVec Ideal ⟨1, ![4]⟩ .f32) (h : Fin 64 → EReal) (o : Fin 4) : EReal :=
  (∑ d : Fin 64, W2 (ix2 d o) * h d) + b2 (ix1 o)

/-- Entry (b, l, o) of the result. -/
def outAt (pn : FVec Ideal ⟨3, ![32, 2048, 4]⟩ .f32) (lp : FVec Ideal ⟨3, ![32, 32768, 4]⟩ .f32) (We : FVec Ideal ⟨2, ![4, 64]⟩ .f32)
    (be : FVec Ideal ⟨1, ![64]⟩ .f32) (W1 : FVec Ideal ⟨2, ![128, 64]⟩ .f32) (b1 : FVec Ideal ⟨1, ![64]⟩ .f32)
    (W2 : FVec Ideal ⟨2, ![64, 4]⟩ .f32) (b2 : FVec Ideal ⟨1, ![4]⟩ .f32) (src dst : IVec ⟨2, ![32, 32768]⟩ 32)
    (b : Fin 32) (l : Fin 32768) (o : Fin 4) : EReal :=
  if o.val < 2 then lp (ix3 b l o)
  else headOut W2 b2 (hid W1 b1 (feat pn We be b (nodeOf (src (ix2 b l)))) (feat pn We be b (nodeOf (dst (ix2 b l))))) o

/-- The whole result array. -/
def result (pn : FVec Ideal ⟨3, ![32, 2048, 4]⟩ .f32) (lp : FVec Ideal ⟨3, ![32, 32768, 4]⟩ .f32) (We : FVec Ideal ⟨2, ![4, 64]⟩ .f32)
    (be : FVec Ideal ⟨1, ![64]⟩ .f32) (W1 : FVec Ideal ⟨2, ![128, 64]⟩ .f32) (b1 : FVec Ideal ⟨1, ![64]⟩ .f32)
    (W2 : FVec Ideal ⟨2, ![64, 4]⟩ .f32) (b2 : FVec Ideal ⟨1, ![4]⟩ .f32) (src dst : IVec ⟨2, ![32, 32768]⟩ 32) :
    FVec Ideal ⟨3, ![32, 32768, 4]⟩ .f32 :=
  fun i => outAt pn lp We be W1 b1 W2 b2 src dst (i 0) (i 1) (i 2)

theorem result_ix3 (pn : FVec Ideal ⟨3, ![32, 2048, 4]⟩ .f32) (lp : FVec Ideal ⟨3, ![32, 32768, 4]⟩ .f32) (We : FVec Ideal ⟨2, ![4, 64]⟩ .f32)
    (be : FVec Ideal ⟨1, ![64]⟩ .f32) (W1 : FVec Ideal ⟨2, ![128, 64]⟩ .f32) (b1 : FVec Ideal ⟨1, ![64]⟩ .f32)
    (W2 : FVec Ideal ⟨2, ![64, 4]⟩ .f32) (b2 : FVec Ideal ⟨1, ![4]⟩ .f32) (src dst : IVec ⟨2, ![32, 32768]⟩ 32)
    (b : Fin 32) (l : Fin 32768) (o : Fin 4) :
    result pn lp We be W1 b1 W2 b2 src dst (ix3 b l o) = outAt pn lp We be W1 b1 W2 b2 src dst b l o := rfl

/-- A value that is a real number. -/
def IsReal (x : EReal) : Prop := ∃ r : ℝ, x = (r : EReal)

end Cert.EdgeHead

end
-- ==== Proof.Blocks.lean ====
/-
  The blocks the kernel body is handed at a grid point, read at an entry, in terms of the argument arrays.

  The grid has 512 points: point t works on batch t / 16 and on edge tile t % 16, the 2048 edges
  (t % 16) * 2048 + j, j < 2048. Before the region the program transposes the node features to [32, 4, 2048] and the
  line parameters to [32, 4, 32768], transposes the embedding weight to [64, 4] and the first layer's weight to
  [64, 128] (which it cuts into its left and right [64, 64] halves), turns the three bias vectors into columns
  (the last after keeping entries 2 and 3), keeps columns 2 and 3 of the second layer's weight and transposes them
  to [2, 64], and clamps the two index arrays to [0, 2047] before giving them a unit middle axis. Each window's block
  at point t is a rectangle of one of these arrays; an entry of the block is therefore an entry of an argument array.
  A clamped index word that was already in [0, 2048) is the word itself.
-/
import proofs.«419284_j6141803233663_3_alg».proof.Proof.Gen.KernelIdeal.Frame
import proofs.«419284_j6141803233663_3_alg».proof.Proof.EdgeSpec
import Idealize.ShloMosaic.Lib.Pipeline.Value
import Idealize.ShloMosaic.Lib.ValueLayout
import Idealize.ShloMosaic.Lib.StableHlo.Run
import Idealize.ShloMosaic.Lib.StableHlo.Predicate

noncomputable section

open Idealize.ShloMosaic Idealize.ShloMosaic.TcCoe Idealize.SL.Sem Idealize.ShloMosaic.ValueIdx

namespace Cert.EdgeHead

open Cert.KernelIdeal Cert.KernelIdeal.Gen

variable (m : (ℓ : Loc nD τ sig) → Buf (Elt Ideal) ℓ)

/-- The argument arrays on core c, at their literal types. -/
abbrev argPn (c : Dev nD) : FVec Ideal S32x2048x4 .f32 := m ((c.tc : Thread nD τ).loc main_arg0)
abbrev argLp (c : Dev nD) : FVec Ideal S32x32768x4 .f32 := m ((c.tc : Thread nD τ).loc main_arg1)
abbrev argWe (c : Dev nD) : FVec Ideal S4x64 .f32 := m ((c.tc : Thread nD τ).loc main_arg2)
abbrev argBe (c : Dev nD) : FVec Ideal S64 .f32 := m ((c.tc : Thread nD τ).loc main_arg3)
abbrev argW1 (c : Dev nD) : FVec Ideal S128x64 .f32 := m ((c.tc : Thread nD τ).loc main_arg4)
abbrev argB1 (c : Dev nD) : FVec Ideal S64 .f32 := m ((c.tc : Thread nD τ).loc main_arg5)
abbrev argW2 (c : Dev nD) : FVec Ideal S64x4 .f32 := m ((c.tc : Thread nD τ).loc main_arg6)
abbrev argB2 (c : Dev nD) : FVec Ideal S4 .f32 := m ((c.tc : Thread nD τ).loc main_arg7)
abbrev argSrc (c : Dev nD) : IVec S32x32768 32 := m ((c.tc : Thread nD τ).loc main_arg8)
abbrev argDst (c : Dev nD) : IVec S32x32768 32 := m ((c.tc : Thread nD τ).loc main_arg9)

theorem points_eq : cfg0.N = 512 := N_0

/-- The batch point t works on. -/
def batchOf (t : Fin cfg0.N) : Fin 32 := ⟨t.val / 16, by have : t.val < 512 := lt_of_lt_of_eq t.isLt points_eq; omega⟩
/-- Edge j of point t's tile, as an edge of the batch. -/
def edgeOf (t : Fin cfg0.N) (j : Fin 2048) : Fin 32768 := ⟨(t.val % 16) * 2048 + j.val, by have := j.isLt; omega⟩
/-- Output column 2 + o. -/
def headCol (o : Fin 2) : Fin 4 := ⟨2 + o.val, by omega⟩

/-- The blocks at point t, at their literal types. -/
abbrev nodesBlk (c : Dev nD) (t : Fin cfg0.N) : Vec Ideal S1x4x2048 .f32 := iblk m c 0 t
abbrev embWBlk (c : Dev nD) (t : Fin cfg0.N) : Vec Ideal S64x4 .f32 := iblk m c 1 t
abbrev embBBlk (c : Dev nD) (t : Fin cfg0.N) : Vec Ideal S64x1 .f32 := iblk m c 2 t
abbrev srcBlk (c : Dev nD) (t : Fin cfg0.N) : Vec Ideal S1x1x2048 .i32 := iblk m c 3 t
abbrev dstBlk (c : Dev nD) (t : Fin cfg0.N) : Vec Ideal S1x1x2048 .i32 := iblk m c 4 t
abbrev lpBlk (c : Dev nD) (t : Fin cfg0.N) : Vec Ideal S1x4x2048 .f32 := iblk m c 5 t
abbrev w1sBlk (c : Dev nD) (t : Fin cfg0.N) : Vec Ideal S64x64 .f32 := iblk m c 6 t
abbrev w1tBlk (c : Dev nD) (t : Fin cfg0.N) : Vec Ideal S64x64 .f32 := iblk m c 7 t
abbrev b1Blk (c : Dev nD) (t : Fin cfg0.N) : Vec Ideal S64x1 .f32 := iblk m c 8 t
abbrev w2Blk (c : Dev nD) (t : Fin cfg0.N) : Vec Ideal S2x64 .f32 := iblk m c 9 t
abbrev b2Blk (c : Dev nD) (t : Fin cfg0.N) : Vec Ideal S2x1 .f32 := iblk m c 10 t

namespace Blocks

/-! ## The arrays the region finds, as operations on the argument arrays -/

/-- The node features, transposed to [32, 4, 2048]. -/
theorem v4_eq (c : Dev nD) : (V m c main_v4 : S32x4x2048.Idx → EReal)
    = transpose S32x4x2048 [0, 2, 1] (argPn m c) transposes_S32x2048x4_S32x4x2048_0_2_1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The embedding weight, transposed to [64, 4]. -/
theorem v5_eq (c : Dev nD) : (V m c main_v5 : S64x4.Idx → EReal)
    = transpose S64x4 [1, 0] (argWe m c) transposes_S4x64_S64x4_1_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The embedding bias, as a column. -/
theorem v6_eq (c : Dev nD) : (V m c main_v6 : S64x1.Idx → EReal)
    = shapeCast S64x1 (argBe m c) shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The source index words, clamped to [0, 2047], with a unit middle axis. -/
theorem v2_eq (c : Dev nD) : (V m c main_v2 : S32x1x32768.Idx → BitVec 32)
    = broadcastInDim S32x1x32768 ![0, 2] bcast_S32x32768_S32x1x32768_0_2
        (minsi (broadcastInDim S32x32768 ![] bcast_S_S32x32768 (constantI S_ 32 2047#32))
          (maxsi (broadcastInDim S32x32768 ![] bcast_S_S32x32768 (constantI S_ 32 0#32)) (argSrc m c))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The destination index words, likewise. -/
theorem v3_eq (c : Dev nD) : (V m c main_v3 : S32x1x32768.Idx → BitVec 32)
    = broadcastInDim S32x1x32768 ![0, 2] bcast_S32x32768_S32x1x32768_0_2
        (minsi (broadcastInDim S32x32768 ![] bcast_S_S32x32768 (constantI S_ 32 2047#32))
          (maxsi (broadcastInDim S32x32768 ![] bcast_S_S32x32768 (constantI S_ 32 0#32)) (argDst m c))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The line parameters, transposed to [32, 4, 32768]. -/
theorem v15_eq (c : Dev nD) : (V m c main_v15 : S32x4x32768.Idx → EReal)
    = transpose S32x4x32768 [0, 2, 1] (argLp m c) transposes_S32x32768x4_S32x4x32768_0_2_1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The left half of the first layer's weight transposed. -/
theorem v8_eq (c : Dev nD) : (V m c main_v8 : S64x64.Idx → EReal)
    = extractStridedSlice S64x64 ![0, 0] (transpose S64x128 [1, 0] (argW1 m c) transposes_S128x64_S64x128_1_0)
        slices_S64x128_S64x64_0_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The right half. -/
theorem v9_eq (c : Dev nD) : (V m c main_v9 : S64x64.Idx → EReal)
    = extractStridedSlice S64x64 ![0, 64] (transpose S64x128 [1, 0] (argW1 m c) transposes_S128x64_S64x128_1_0)
        slices_S64x128_S64x64_0_64 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The first layer's bias, as a column. -/
theorem v10_eq (c : Dev nD) : (V m c main_v10 : S64x1.Idx → EReal)
    = shapeCast S64x1 (argB1 m c) shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Columns 2 and 3 of the second layer's weight, transposed to [2, 64]. -/
theorem v12_eq (c : Dev nD) : (V m c main_v12 : S2x64.Idx → EReal)
    = transpose S2x64 [1, 0] (extractStridedSlice S64x2 ![0, 2] (argW2 m c) slices_S64x4_S64x2_0_2)
        transposes_S64x2_S2x64_1_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Entries 2 and 3 of the second layer's bias, as a column. -/
theorem v14_eq (c : Dev nD) : (V m c main_v14 : S2x1.Idx → EReal)
    = shapeCast S2x1 (extractStridedSlice S2 ![2] (argB2 m c) slices_S4_S2_2) shapeCasts_S2_S2x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-! ## The windows' index maps, decided once over the grid -/

theorem idx0 : ∀ t : Fin cfg0.N, win0_0.index t 0 = t.val / 16 ∧ win0_0.index t 1 = 0 ∧ win0_0.index t 2 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = t.val / 16 ∧ win0_3.index t 1 = 0 ∧ win0_3.index t 2 = t.val % 16 :=
  (by decide +kernel : ∀ t : Fin grid0.N, _)
theorem idx4 : ∀ t : Fin cfg0.N, win0_4.index t 0 = t.val / 16 ∧ win0_4.index t 1 = 0 ∧ win0_4.index t 2 = t.val % 16 :=
  (by decide +kernel : ∀ t : Fin grid0.N, _)
theorem idx5 : ∀ t : Fin cfg0.N, win0_5.index t 0 = t.val / 16 ∧ win0_5.index t 1 = 0 ∧ win0_5.index t 2 = t.val % 16 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)

/-! ## Two reads used more than once -/

/-- A vector turned into a column reads, at (d, 0), the vector at d: both have row-major position d. -/
theorem column_apply {a : ℕ} {α : Type} (x : (⟨1, ![a]⟩ : Shape).Idx → α)
    (h : (⟨1, ![a]⟩ : Shape).ShapeCasts ⟨2, ![a, 1]⟩) (d : Fin a) :
    shapeCast ⟨2, ![a, 1]⟩ x h (ix2 d 0) = x (ix1 d) := by
  refine shapeCast_apply x h _ _ ?_
  rw [Shape.rowMajor_val_one, Shape.rowMajor_val_two]
  show d.val = d.val * 1 + 0
  omega

/-- Clamping to [0, 2047] a word whose unsigned value is below 2048 leaves it: such a word reads the same signed and
    unsigned, so it is neither below 0 nor above 2047 in the signed order. -/
theorem clamp_of_lt (w : BitVec 32) (h : w.toNat < 2048) : IntOp.minsi 2047#32 (IntOp.maxsi 0#32 w) = w := by
  have hw : w.toInt = w.toNat := StableHlo.Predicate.toInt_eq_toNat_of_lt (by omega)
  have h0 : (0#32 : BitVec 32).toInt = 0 := by decide
  have h1 : (2047#32 : BitVec 32).toInt = 2047 := by decide
  have e1 : IntOp.maxsi 0#32 w = w := by
    unfold IntOp.maxsi
    have hn : ¬ (w.slt 0#32 = true) := by
      rw [BitVec.slt_iff_toInt_lt, hw, h0]; omega
    rw [if_neg hn]
  rw [e1]
  unfold IntOp.minsi
  have hn : ¬ ((2047#32 : BitVec 32).slt w = true) := by
    rw [BitVec.slt_iff_toInt_lt, hw, h1]; omega
  rw [if_neg hn]

/-- The clamped, re-laid index array at (b, 0, l) is the word at (b, l) when that word is below 2048. -/
theorem clamped_apply (x : IVec S32x32768 32) (b : Fin 32) (l : Fin 32768) (h : (x (ix2 b l)).toNat < 2048) :
    broadcastInDim S32x1x32768 ![0, 2] bcast_S32x32768_S32x1x32768_0_2
        (minsi (broadcastInDim S32x32768 ![] bcast_S_S32x32768 (constantI S_ 32 2047#32))
          (maxsi (broadcastInDim S32x32768 ![] bcast_S_S32x32768 (constantI S_ 32 0#32)) x)) (ix3 b 0 l)
      = x (ix2 b l) := by
  refine (broadcastInDim_apply _ _ _ (ix3 b 0 l) (ix2 b l) (fun a => ?_)).trans ?_
  · match a with
    | ⟨0, _⟩ => rfl
    | ⟨1, _⟩ => rfl
  · show IntOp.minsi 2047#32 (IntOp.maxsi 0#32 (x (ix2 b l))) = _
    exact clamp_of_lt _ h

end Blocks

open Blocks

theorem nodesBlk_apply (c : Dev nD) (t : Fin cfg0.N) (i : Fin 4) (n : Fin 2048) :
    nodesBlk m c t (ix3 0 i n) = argPn m c (ix3 (batchOf t) n i) := by
  unfold nodesBlk iblk
  rw [View.read_apply]
  show V m c main_v4 (((cfg0.win 0).blk t).view.emb (ix3 0 i n)) = _
  have hi := idx0 t
  -- the block's entry (0, i, n) is the array's entry (t / 16, i, n)
  have hemb : ((cfg0.win 0).blk t).view.emb (ix3 0 i n) = (ix3 (batchOf t) i n : S32x4x2048.Idx) := by
    funext a
    apply Fin.ext
    match a with
    | ⟨0, _⟩ => show win0_0.index t 0 * 1 + 1 * 0 = t.val / 16; rw [hi.1]; omega
    | ⟨1, _⟩ => show win0_0.index t 1 * 4 + 1 * i.val = i.val; rw [hi.2.1]; omega
    | ⟨2, _⟩ => show win0_0.index t 2 * 2048 + 1 * n.val = n.val; rw [hi.2.2]; omega
  rw [hemb]
  refine (congrFun (v4_eq m c) _).trans ?_
  exact transpose_ix3_021_apply _ _ (batchOf t) i n

theorem embWBlk_apply (c : Dev nD) (t : Fin cfg0.N) (d : Fin 64) (i : Fin 4) :
    embWBlk m c t (ix2 d i) = argWe m c (ix2 i d) := by
  unfold embWBlk iblk
  rw [View.read_apply]
  show V m c main_v5 (((cfg0.win 1).blk t).view.emb (ix2 d i)) = _
  have hi := idx1 t
  have hemb : ((cfg0.win 1).blk t).view.emb (ix2 d i) = (ix2 d i : S64x4.Idx) := by
    funext a
    apply Fin.ext
    match a with
    | ⟨0, _⟩ => show win0_1.index t 0 * 64 + 1 * d.val = d.val; rw [hi.1]; omega
    | ⟨1, _⟩ => show win0_1.index t 1 * 4 + 1 * i.val = i.val; rw [hi.2]; omega
  rw [hemb]
  refine (congrFun (v5_eq m c) _).trans ?_
  exact transpose_ix2_apply _ _ d i

theorem embBBlk_apply (c : Dev nD) (t : Fin cfg0.N) (d : Fin 64) :
    embBBlk m c t (ix2 d 0) = argBe m c (ix1 d) := by
  unfold embBBlk iblk
  rw [View.read_apply]
  show V m c main_v6 (((cfg0.win 2).blk t).view.emb (ix2 d 0)) = _
  have hi := idx2 t
  have hemb : ((cfg0.win 2).blk t).view.emb (ix2 d 0) = (ix2 d 0 : S64x1.Idx) := by
    funext a
    apply Fin.ext
    match a with
    | ⟨0, _⟩ => show win0_2.index t 0 * 64 + 1 * d.val = d.val; rw [hi.1]; omega
    | ⟨1, _⟩ => show win0_2.index t 1 * 1 + 1 * 0 = 0; rw [hi.2]
  rw [hemb]
  refine (congrFun (v6_eq m c) _).trans ?_
  exact column_apply _ _ d

theorem srcBlk_apply (c : Dev nD) (t : Fin cfg0.N) (j : Fin 2048)
    (h : (argSrc m c (ix2 (batchOf t) (edgeOf t j))).toNat < 2048) :
    srcBlk m c t (ix3 0 0 j) = argSrc m c (ix2 (batchOf t) (edgeOf t j)) := by
  unfold srcBlk iblk
  rw [View.read_apply]
  show V m c main_v2 (((cfg0.win 3).blk t).view.emb (ix3 0 0 j)) = _
  have hi := idx3 t
  -- the block's entry (0, 0, j) is the array's entry (t / 16, 0, (t % 16) * 2048 + j)
  have hemb : ((cfg0.win 3).blk t).view.emb (ix3 0 0 j) = (ix3 (batchOf t) 0 (edgeOf t j) : S32x1x32768.Idx) := by
    funext a
    apply Fin.ext
    match a with
    | ⟨0, _⟩ => show win0_3.index t 0 * 1 + 1 * 0 = t.val / 16; rw [hi.1]; omega
    | ⟨1, _⟩ => show win0_3.index t 1 * 1 + 1 * 0 = 0; rw [hi.2.1]
    | ⟨2, _⟩ => show win0_3.index t 2 * 2048 + 1 * j.val = (t.val % 16) * 2048 + j.val; rw [hi.2.2]; omega
  rw [hemb]
  refine (congrFun (v2_eq m c) _).trans ?_
  exact clamped_apply _ _ _ h

theorem dstBlk_apply (c : Dev nD) (t : Fin cfg0.N) (j : Fin 2048)
    (h : (argDst m c (ix2 (batchOf t) (edgeOf t j))).toNat < 2048) :
    dstBlk m c t (ix3 0 0 j) = argDst m c (ix2 (batchOf t) (edgeOf t j)) := by
  unfold dstBlk iblk
  rw [View.read_apply]
  show V m c main_v3 (((cfg0.win 4).blk t).view.emb (ix3 0 0 j)) = _
  have hi := idx4 t
  have hemb : ((cfg0.win 4).blk t).view.emb (ix3 0 0 j) = (ix3 (batchOf t) 0 (edgeOf t j) : S32x1x32768.Idx) := by
    funext a
    apply Fin.ext
    match a with
    | ⟨0, _⟩ => show win0_4.index t 0 * 1 + 1 * 0 = t.val / 16; rw [hi.1]; omega
    | ⟨1, _⟩ => show win0_4.index t 1 * 1 + 1 * 0 = 0; rw [hi.2.1]
    | ⟨2, _⟩ => show win0_4.index t 2 * 2048 + 1 * j.val = (t.val % 16) * 2048 + j.val; rw [hi.2.2]; omega
  rw [hemb]
  refine (congrFun (v3_eq m c) _).trans ?_
  exact clamped_apply _ _ _ h

theorem lpBlk_apply (c : Dev nD) (t : Fin cfg0.N) (o : Fin 4) (j : Fin 2048) :
    lpBlk m c t (ix3 0 o j) = argLp m c (ix3 (batchOf t) (edgeOf t j) o) := by
  unfold lpBlk iblk
  rw [View.read_apply]
  show V m c main_v15 (((cfg0.win 5).blk t).view.emb (ix3 0 o j)) = _
  have hi := idx5 t
  have hemb : ((cfg0.win 5).blk t).view.emb (ix3 0 o j) = (ix3 (batchOf t) o (edgeOf t j) : S32x4x32768.Idx) := by
    funext a
    apply Fin.ext
    match a with
    | ⟨0, _⟩ => show win0_5.index t 0 * 1 + 1 * 0 = t.val / 16; rw [hi.1]; omega
    | ⟨1, _⟩ => show win0_5.index t 1 * 4 + 1 * o.val = o.val; rw [hi.2.1]; omega
    | ⟨2, _⟩ => show win0_5.index t 2 * 2048 + 1 * j.val = (t.val % 16) * 2048 + j.val; rw [hi.2.2]; omega
  rw [hemb]
  refine (congrFun (v15_eq m c) _).trans ?_
  exact transpose_ix3_021_apply _ _ (batchOf t) o (edgeOf t j)

theorem w1sBlk_apply (c : Dev nD) (t : Fin cfg0.N) (d e : Fin 64) :
    w1sBlk m c t (ix2 d e) = argW1 m c (ix2 (loRow e) d) := by
  unfold w1sBlk iblk
  rw [View.read_apply]
  show V m c main_v8 (((cfg0.win 6).blk t).view.emb (ix2 d e)) = _
  have hi := idx6 t
  have hemb : ((cfg0.win 6).blk t).view.emb (ix2 d e) = (ix2 d e : S64x64.Idx) := by
    funext a
    apply Fin.ext
    match a with
    | ⟨0, _⟩ => show win0_6.index t 0 * 64 + 1 * d.val = d.val; rw [hi.1]; omega
    | ⟨1, _⟩ => show win0_6.index t 1 * 64 + 1 * e.val = e.val; rw [hi.2]; omega
  rw [hemb]
  refine (congrFun (v8_eq m c) _).trans ?_
  -- column e of the left half is column e of the transposed weight, that is row e of the weight
  refine (slice2_axis1_apply 0 _ _ d e (loRow e) (Nat.zero_add _).symm).trans ?_
  exact transpose_ix2_apply _ _ d (loRow e)

theorem w1tBlk_apply (c : Dev nD) (t : Fin cfg0.N) (d e : Fin 64) :
    w1tBlk m c t (ix2 d e) = argW1 m c (ix2 (hiRow e) d) := by
  unfold w1tBlk iblk
  rw [View.read_apply]
  show V m c main_v9 (((cfg0.win 7).blk t).view.emb (ix2 d e)) = _
  have hi := idx7 t
  have hemb : ((cfg0.win 7).blk t).view.emb (ix2 d e) = (ix2 d e : S64x64.Idx) := by
    funext a
    apply Fin.ext
    match a with
    | ⟨0, _⟩ => show win0_7.index t 0 * 64 + 1 * d.val = d.val; rw [hi.1]; omega
    | ⟨1, _⟩ => show win0_7.index t 1 * 64 + 1 * e.val = e.val; rw [hi.2]; omega
  rw [hemb]
  refine (congrFun (v9_eq m c) _).trans ?_
  -- column e of the right half is column 64 + e of the transposed weight, that is row 64 + e of the weight
  refine (slice2_axis1_apply 64 _ _ d e (hiRow e) rfl).trans ?_
  exact transpose_ix2_apply _ _ d (hiRow e)

theorem b1Blk_apply (c : Dev nD) (t : Fin cfg0.N) (d : Fin 64) :
    b1Blk m c t (ix2 d 0) = argB1 m c (ix1 d) := by
  unfold b1Blk iblk
  rw [View.read_apply]
  show V m c main_v10 (((cfg0.win 8).blk t).view.emb (ix2 d 0)) = _
  have hi := idx8 t
  have hemb : ((cfg0.win 8).blk t).view.emb (ix2 d 0) = (ix2 d 0 : S64x1.Idx) := by
    funext a
    apply Fin.ext
    match a with
    | ⟨0, _⟩ => show win0_8.index t 0 * 64 + 1 * d.val = d.val; rw [hi.1]; omega
    | ⟨1, _⟩ => show win0_8.index t 1 * 1 + 1 * 0 = 0; rw [hi.2]
  rw [hemb]
  refine (congrFun (v10_eq m c) _).trans ?_
  exact column_apply _ _ d

theorem w2Blk_apply (c : Dev nD) (t : Fin cfg0.N) (o : Fin 2) (d : Fin 64) :
    w2Blk m c t (ix2 o d) = argW2 m c (ix2 d (headCol o)) := by
  unfold w2Blk iblk
  rw [View.read_apply]
  show V m c main_v12 (((cfg0.win 9).blk t).view.emb (ix2 o d)) = _
  have hi := idx9 t
  have hemb : ((cfg0.win 9).blk t).view.emb (ix2 o d) = (ix2 o d : S2x64.Idx) := by
    funext a
    apply Fin.ext
    match a with
    | ⟨0, _⟩ => show win0_9.index t 0 * 2 + 1 * o.val = o.val; rw [hi.1]; omega
    | ⟨1, _⟩ => show win0_9.index t 1 * 64 + 1 * d.val = d.val; rw [hi.2]; omega
  rw [hemb]
  refine (congrFun (v12_eq m c) _).trans ?_
  -- entry (o, d) of the transpose is entry (d, o) of the kept columns, that is entry (d, 2 + o) of the weight
  refine (transpose_ix2_apply _ _ o d).trans ?_
  exact slice2_axis1_apply 2 _ _ d o (headCol o) rfl

theorem b2Blk_apply (c : Dev nD) (t : Fin cfg0.N) (o : Fin 2) :
    b2Blk m c t (ix2 o 0) = argB2 m c (ix1 (headCol o)) := by
  unfold b2Blk iblk
  rw [View.read_apply]
  show V m c main_v14 (((cfg0.win 10).blk t).view.emb (ix2 o 0)) = _
  have hi := idx10 t
  have hemb : ((cfg0.win 10).blk t).view.emb (ix2 o 0) = (ix2 o 0 : S2x1.Idx) := by
    funext a
    apply Fin.ext
    match a with
    | ⟨0, _⟩ => show win0_10.index t 0 * 2 + 1 * o.val = o.val; rw [hi.1]; omega
    | ⟨1, _⟩ => show win0_10.index t 1 * 1 + 1 * 0 = 0; rw [hi.2]
  rw [hemb]
  refine (congrFun (v14_eq m c) _).trans ?_
  -- entry (o, 0) of the column is entry o of the kept entries, that is entry 2 + o of the bias
  refine (column_apply _ _ o).trans ?_
  exact extractStridedSlice_apply _ _ _ (ix1 o) (ix1 (headCol o)) (fun a => match a with | ⟨0, _⟩ => rfl)

end Cert.EdgeHead

end
-- ==== Proof.Matmul.lean ====
/-
  A matrix product into a zero accumulator, read at one entry.

  At the exact instance the kernel's `tpu.matmul` of an [A, K] block with a [K, B] block into zeros is the plain sum
  over the contracted axis: entry (p, q) is the sum over k < K of a[p, k] * b[k, q]. The library states this over the
  record's own contraction index type; here the sum is moved onto `Fin K` through the record's one contracted axis,
  once for any record whose operand indices are "(row, k)" on the left and "(k, column)" on the right, and then for
  the four records the kernel body uses: [64,4]x[4,2048], [64,2048]x[2048,2048], [64,64]x[64,2048], [2,64]x[64,2048].
-/
import proofs.«419284_j6141803233663_3_alg».proof.Proof.Gen.KernelIdeal
import Idealize.ShloMosaic.PureOps.Ideal.Laws
import Idealize.ShloMosaic.Lib.ValueIdx

noncomputable section

open scoped BigOperators

namespace Cert.EdgeHead

open Idealize.ShloMosaic Idealize.ShloMosaic.ValueIdx Cert.KernelIdeal

/-- The product of an [A, K] and a [K, B] array into zeros at (p, q), for a record with one contracted axis whose
    left operand index at output (p, q) and contraction k is (p, k) and whose right operand index is (k, q). -/
theorem matmul_rows_cols {A K B : Nat} {φ₁ φ₂ : FTy} (D : DotDims ⟨2, ![A, K]⟩ ⟨2, ![K, B]⟩ ⟨2, ![A, B]⟩)
    (hr : D.contr.rank = 1) (hs : D.contr.size ⟨0, by omega⟩ = K)
    (hl0 : ∀ (i : (⟨2, ![A, B]⟩ : Shape).Idx) (c : D.contr.Idx), (D.lhsIdx i c 0).val = (i 0).val)
    (hl1 : ∀ (i : (⟨2, ![A, B]⟩ : Shape).Idx) (c : D.contr.Idx), (D.lhsIdx i c 1).val = (c ⟨0, by omega⟩).val)
    (hr0 : ∀ (i : (⟨2, ![A, B]⟩ : Shape).Idx) (c : D.contr.Idx), (D.rhsIdx i c 0).val = (c ⟨0, by omega⟩).val)
    (hr1 : ∀ (i : (⟨2, ![A, B]⟩ : Shape).Idx) (c : D.contr.Idx), (D.rhsIdx i c 1).val = (i 1).val)
    (a : FVec Ideal ⟨2, ![A, K]⟩ φ₁) (b : FVec Ideal ⟨2, ![K, B]⟩ φ₂) (p : Fin A) (q : Fin B) :
    FloatOps.matmul D none a b (constant (F := Ideal) ⟨2, ![A, B]⟩ .f32 0x00000000#32) (ix2 p q)
      = ∑ k : Fin K, a (ix2 p k) * b (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact hl0 _ _
    | ⟨1, _⟩ => exact (hl1 _ _).trans hk)
  have er : D.rhsIdx (ix2 p q) ((contrEquiv1 D K hr hs).symm k) = ix2 k q := funext fun x => Fin.ext (by
    match x with
    | ⟨0, _⟩ => exact (hr0 _ _).trans hk
    | ⟨1, _⟩ => exact hr1 _ _)
  rw [el, er]

/-! ### The embedding's product: [64, 4] x [4, 2048] -/

theorem embed_lhs_0 (i : S64x2048.Idx) (c : dot_S64x4_S4x2048_S64x2048_1_0_0_1_n_n.contr.Idx) :
    (dot_S64x4_S4x2048_S64x2048_1_0_0_1_n_n.lhsIdx i c 0).val = (i 0).val := by
  unfold DotDims.lhsIdx
  rw [dif_neg (show ¬(0 : Fin S64x4.rank) ∈ dot_S64x4_S4x2048_S64x2048_1_0_0_1_n_n.lhsBatch by decide), dif_pos (show (0 : Fin S64x4.rank) ∈ dot_S64x4_S4x2048_S64x2048_1_0_0_1_n_n.lhsNonContracting by decide)]
  rfl
theorem embed_lhs_1 (i : S64x2048.Idx) (c : dot_S64x4_S4x2048_S64x2048_1_0_0_1_n_n.contr.Idx) :
    (dot_S64x4_S4x2048_S64x2048_1_0_0_1_n_n.lhsIdx i c 1).val = (c ⟨0, by decide⟩).val :=
  dot_S64x4_S4x2048_S64x2048_1_0_0_1_n_n.lhsIdx_val_of_single rfl i c
theorem embed_rhs_0 (i : S64x2048.Idx) (c : dot_S64x4_S4x2048_S64x2048_1_0_0_1_n_n.contr.Idx) :
    (dot_S64x4_S4x2048_S64x2048_1_0_0_1_n_n.rhsIdx i c 0).val = (c ⟨0, by decide⟩).val :=
  dot_S64x4_S4x2048_S64x2048_1_0_0_1_n_n.rhsIdx_val_of_single rfl i c
theorem embed_rhs_1 (i : S64x2048.Idx) (c : dot_S64x4_S4x2048_S64x2048_1_0_0_1_n_n.contr.Idx) :
    (dot_S64x4_S4x2048_S64x2048_1_0_0_1_n_n.rhsIdx i c 1).val = (i 1).val := by
  unfold DotDims.rhsIdx
  rw [dif_neg (show ¬(1 : Fin S4x2048.rank) ∈ dot_S64x4_S4x2048_S64x2048_1_0_0_1_n_n.rhsBatch by decide), dif_pos (show (1 : Fin S4x2048.rank) ∈ dot_S64x4_S4x2048_S64x2048_1_0_0_1_n_n.rhsNonContracting by decide)]
  rfl

/-- Entry (d, n) of a [64, 4] by [4, 2048] product into zeros. -/
theorem embed_matmul {φ₁ φ₂ : FTy} (a : FVec Ideal S64x4 φ₁) (b : FVec Ideal S4x2048 φ₂) (d : Fin 64) (n : Fin 2048) :
    FloatOps.matmul dot_S64x4_S4x2048_S64x2048_1_0_0_1_n_n none a b (constant (F := Ideal) S64x2048 .f32 0x00000000#32) (ix2 d n)
      = ∑ i : Fin 4, a (ix2 d i) * b (ix2 i n) :=
  matmul_rows_cols dot_S64x4_S4x2048_S64x2048_1_0_0_1_n_n rfl rfl embed_lhs_0 embed_lhs_1 embed_rhs_0 embed_rhs_1 a b d n

/-! ### The one-hot gather's product: [64, 2048] x [2048, 2048] -/

theorem gather_lhs_0 (i : S64x2048.Idx) (c : dot_S64x2048_S2048x2048_S64x2048_1_0_0_1_n_n.contr.Idx) :
    (dot_S64x2048_S2048x2048_S64x2048_1_0_0_1_n_n.lhsIdx i c 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
theorem gather_lhs_1 (i : S64x2048.Idx) (c : dot_S64x2048_S2048x2048_S64x2048_1_0_0_1_n_n.contr.Idx) :
    (dot_S64x2048_S2048x2048_S64x2048_1_0_0_1_n_n.lhsIdx i c 1).val = (c ⟨0, by decide⟩).val :=
  dot_S64x2048_S2048x2048_S64x2048_1_0_0_1_n_n.lhsIdx_val_of_single rfl i c
theorem gather_rhs_0 (i : S64x2048.Idx) (c : dot_S64x2048_S2048x2048_S64x2048_1_0_0_1_n_n.contr.Idx) :
    (dot_S64x2048_S2048x2048_S64x2048_1_0_0_1_n_n.rhsIdx i c 0).val = (c ⟨0, by decide⟩).val :=
  dot_S64x2048_S2048x2048_S64x2048_1_0_0_1_n_n.rhsIdx_val_of_single rfl i c
theorem gather_rhs_1 (i : S64x2048.Idx) (c : dot_S64x2048_S2048x2048_S64x2048_1_0_0_1_n_n.contr.Idx) :
    (dot_S64x2048_S2048x2048_S64x2048_1_0_0_1_n_n.rhsIdx i c 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- Entry (e, j) of a [64, 2048] by [2048, 2048] product into zeros. -/
theorem gather_matmul {φ₁ φ₂ : FTy} (a : FVec Ideal S64x2048 φ₁) (b : FVec Ideal S2048x2048 φ₂) (p : Fin 64) (q : Fin 2048) :
    FloatOps.matmul dot_S64x2048_S2048x2048_S64x2048_1_0_0_1_n_n none a b (constant (F := Ideal) S64x2048 .f32 0x00000000#32) (ix2 p q)
      = ∑ k : Fin 2048, a (ix2 p k) * b (ix2 k q) :=
  matmul_rows_cols dot_S64x2048_S2048x2048_S64x2048_1_0_0_1_n_n rfl rfl gather_lhs_0 gather_lhs_1 gather_rhs_0 gather_rhs_1 a b p q

/-! ### The first layer's halves: [64, 64] x [64, 2048] -/

theorem layer1_lhs_0 (i : S64x2048.Idx) (c : dot_S64x64_S64x2048_S64x2048_1_0_0_1_n_n.contr.Idx) :
    (dot_S64x64_S64x2048_S64x2048_1_0_0_1_n_n.lhsIdx i c 0).val = (i 0).val := by
  unfold DotDims.lhsIdx
  rw [dif_neg (show ¬(0 : Fin S64x64.rank) ∈ dot_S64x64_S64x2048_S64x2048_1_0_0_1_n_n.lhsBatch by decide), dif_pos (show (0 : Fin S64x64.rank) ∈ dot_S64x64_S64x2048_S64x2048_1_0_0_1_n_n.lhsNonContracting by decide)]
  rfl
theorem layer1_lhs_1 (i : S64x2048.Idx) (c : dot_S64x64_S64x2048_S64x2048_1_0_0_1_n_n.contr.Idx) :
    (dot_S64x64_S64x2048_S64x2048_1_0_0_1_n_n.lhsIdx i c 1).val = (c ⟨0, by decide⟩).val :=
  dot_S64x64_S64x2048_S64x2048_1_0_0_1_n_n.lhsIdx_val_of_single rfl i c
theorem layer1_rhs_0 (i : S64x2048.Idx) (c : dot_S64x64_S64x2048_S64x2048_1_0_0_1_n_n.contr.Idx) :
    (dot_S64x64_S64x2048_S64x2048_1_0_0_1_n_n.rhsIdx i c 0).val = (c ⟨0, by decide⟩).val :=
  dot_S64x64_S64x2048_S64x2048_1_0_0_1_n_n.rhsIdx_val_of_single rfl i c
theorem layer1_rhs_1 (i : S64x2048.Idx) (c : dot_S64x64_S64x2048_S64x2048_1_0_0_1_n_n.contr.Idx) :
    (dot_S64x64_S64x2048_S64x2048_1_0_0_1_n_n.rhsIdx i c 1).val = (i 1).val := by
  unfold DotDims.rhsIdx
  rw [dif_neg (show ¬(1 : Fin S64x2048.rank) ∈ dot_S64x64_S64x2048_S64x2048_1_0_0_1_n_n.rhsBatch by decide), dif_pos (show (1 : Fin S64x2048.rank) ∈ dot_S64x64_S64x2048_S64x2048_1_0_0_1_n_n.rhsNonContracting by decide)]
  rfl

/-- Entry (d, j) of a [64, 64] by [64, 2048] product into zeros. -/
theorem layer1_matmul {φ₁ φ₂ : FTy} (a : FVec Ideal S64x64 φ₁) (b : FVec Ideal S64x2048 φ₂) (p : Fin 64) (q : Fin 2048) :
    FloatOps.matmul dot_S64x64_S64x2048_S64x2048_1_0_0_1_n_n none a b (constant (F := Ideal) S64x2048 .f32 0x00000000#32) (ix2 p q)
      = ∑ k : Fin 64, a (ix2 p k) * b (ix2 k q) :=
  matmul_rows_cols dot_S64x64_S64x2048_S64x2048_1_0_0_1_n_n rfl rfl layer1_lhs_0 layer1_lhs_1 layer1_rhs_0 layer1_rhs_1 a b p q

/-! ### The second layer: [2, 64] x [64, 2048] -/

theorem layer2_lhs_0 (i : S2x2048.Idx) (c : dot_S2x64_S64x2048_S2x2048_1_0_0_1_n_n.contr.Idx) :
    (dot_S2x64_S64x2048_S2x2048_1_0_0_1_n_n.lhsIdx i c 0).val = (i 0).val := by
  unfold DotDims.lhsIdx
  rw [dif_neg (show ¬(0 : Fin S2x64.rank) ∈ dot_S2x64_S64x2048_S2x2048_1_0_0_1_n_n.lhsBatch by decide), dif_pos (show (0 : Fin S2x64.rank) ∈ dot_S2x64_S64x2048_S2x2048_1_0_0_1_n_n.lhsNonContracting by decide)]
  rfl
theorem layer2_lhs_1 (i : S2x2048.Idx) (c : dot_S2x64_S64x2048_S2x2048_1_0_0_1_n_n.contr.Idx) :
    (dot_S2x64_S64x2048_S2x2048_1_0_0_1_n_n.lhsIdx i c 1).val = (c ⟨0, by decide⟩).val :=
  dot_S2x64_S64x2048_S2x2048_1_0_0_1_n_n.lhsIdx_val_of_single rfl i c
theorem layer2_rhs_0 (i : S2x2048.Idx) (c : dot_S2x64_S64x2048_S2x2048_1_0_0_1_n_n.contr.Idx) :
    (dot_S2x64_S64x2048_S2x2048_1_0_0_1_n_n.rhsIdx i c 0).val = (c ⟨0, by decide⟩).val :=
  dot_S2x64_S64x2048_S2x2048_1_0_0_1_n_n.rhsIdx_val_of_single rfl i c
theorem layer2_rhs_1 (i : S2x2048.Idx) (c : dot_S2x64_S64x2048_S2x2048_1_0_0_1_n_n.contr.Idx) :
    (dot_S2x64_S64x2048_S2x2048_1_0_0_1_n_n.rhsIdx i c 1).val = (i 1).val := by
  unfold DotDims.rhsIdx
  rw [dif_neg (show ¬(1 : Fin S64x2048.rank) ∈ dot_S2x64_S64x2048_S2x2048_1_0_0_1_n_n.rhsBatch by decide), dif_pos (show (1 : Fin S64x2048.rank) ∈ dot_S2x64_S64x2048_S2x2048_1_0_0_1_n_n.rhsNonContracting by decide)]
  rfl

/-- Entry (o, j) of a [2, 64] by [64, 2048] product into zeros. -/
theorem layer2_matmul {φ₁ φ₂ : FTy} (a : FVec Ideal S2x64 φ₁) (b : FVec Ideal S64x2048 φ₂) (p : Fin 2) (q : Fin 2048) :
    FloatOps.matmul dot_S2x64_S64x2048_S2x2048_1_0_0_1_n_n none a b (constant (F := Ideal) S2x2048 .f32 0x00000000#32) (ix2 p q)
      = ∑ k : Fin 64, a (ix2 p k) * b (ix2 k q) :=
  matmul_rows_cols dot_S2x64_S64x2048_S2x2048_1_0_0_1_n_n rfl rfl layer2_lhs_0 layer2_lhs_1 layer2_rhs_0 layer2_rhs_1 a b p q

end Cert.EdgeHead

end
-- ==== Proof.PayEmbed.lean ====
/-
  The node embedding as the kernel body computes it, entry by entry.

  At a grid point that starts a batch, the body multiplies the transposed embedding weight block x1 ([64, 4]) with the
  batch's transposed node block x0 ([1, 4, 2048]) and adds the bias column x2 ([64, 1]): entry (d, n) is
      (sum over i < 4 of x1[d, i] * x0[0, i, n]) + x2[d, 0].
  It keeps this twice: rounded to the short format (the "hi" half) and the rounding error, the value minus its
  round trip (the "lo" half). At the exact instance a change of format is the identity, so hi is the value itself and
  lo is the value minus itself, which is zero when the value is a real number.
-/
import proofs.«419284_j6141803233663_3_alg».proof.Proof.Gen.KernelIdeal.Skeleton
import proofs.«419284_j6141803233663_3_alg».proof.Proof.Matmul
import proofs.«419284_j6141803233663_3_alg».proof.Proof.EdgeSpec
import Idealize.ShloMosaic.Lib.Pipeline.Value
import Idealize.ShloMosaic.Lib.ValueLayout

noncomputable section

open scoped BigOperators

namespace Cert.EdgeHead

open Idealize.ShloMosaic Idealize.ShloMosaic.ValueIdx Cert.KernelIdeal Cert.KernelIdeal.Gen

/-- An `[a, 1]` column broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- along the rows the column keeps its coordinate, unless it has a single row, and then that coordinate is 0
    show p.val = if a = 1 then 0 else p.val
    split
    · have := p.isLt; omega
    · rfl
  | ⟨1, _⟩ => rfl

/-- Entry (d, n) of the embedding. -/
theorem embed_apply (x1 : Vec Ideal S64x4 .f32) (x0 : Vec Ideal S1x4x2048 .f32) (x2 : Vec Ideal S64x1 .f32) (d : Fin 64) (n : Fin 2048) :
    k0_pay2 (F := Ideal) x1 x0 x2 (ix2 d n) = (∑ i : Fin 4, x1 (ix2 d i) * x0 (ix3 0 i n)) + x2 (ix2 d 0) := by
  unfold k0_pay2
  -- the sum of the product and the broadcast bias, read at (d, n); the two same-shape casts are the identity
  rw [addf_apply, shapeCast_self, shapeCast_self, broadcastTo_a1_ab_apply]
  refine congrArg (· + x2 (ix2 d 0)) ?_
  refine (embed_matmul _ _ d n).trans ?_
  -- the node block with its unit axis dropped reads (0, i, n) at (i, n)
  refine Finset.sum_congr rfl fun i _ => ?_
  rw [shapeCast_1ab_ab_apply]

/-- The hi half is the embedding. -/
theorem hi_apply (x1 : Vec Ideal S64x4 .f32) (x0 : Vec Ideal S1x4x2048 .f32) (x2 : Vec Ideal S64x1 .f32) (j : S64x2048.Idx) :
    (k0_pay3 (F := Ideal) x1 x0 x2 j : EReal) = k0_pay2 (F := Ideal) x1 x0 x2 j := by
  unfold k0_pay3
  -- a same-shape cast is the identity, and at the exact instance a change of format keeps the value
  rw [shapeCast_self, truncf_apply]

/-- The lo half is zero wherever the embedding is a real number. -/
theorem lo_apply (x1 : Vec Ideal S64x4 .f32) (x0 : Vec Ideal S1x4x2048 .f32) (x2 : Vec Ideal S64x1 .f32) (j : S64x2048.Idx)
    (h : IsReal (k0_pay2 (F := Ideal) x1 x0 x2 j)) :
    (k0_pay4 (F := Ideal) x1 x0 x2 j : EReal) = 0 := by
  obtain ⟨r, hr⟩ := h
  unfold k0_pay4
  rw [shapeCast_self, truncf_apply, subf_apply]
  -- the value minus itself; for a real number that difference is zero
  show (k0_pay2 (F := Ideal) x1 x0 x2 j : EReal) - k0_pay2 (F := Ideal) x1 x0 x2 j = 0
  rw [hr, ← EReal.coe_sub, sub_self, EReal.coe_zero]

end Cert.EdgeHead

end
-- ==== Proof.PayGather.lean ====
/-
  The gather by a one-hot product, and the first layer before its bias, entry by entry.

  For edge column j of the tile, with source word x3[0, 0, j] and destination word x4[0, 0, j], the body builds the
  [2048, 2048] table whose entry (n, j) is 1 when n is the word and 0 otherwise, and multiplies the carried feature
  halves hi and lo ([64, 2048]) with it: the sum over n of hi[e, n] * table[n, j] has one non-zero term, hi[e, s] for
  the node s the word names, and the lo half adds nothing when lo is zero. The first layer then multiplies its two
  [64, 64] weight blocks x6 and x7 with the gathered source and destination features and adds the two products.
-/
import proofs.«419284_j6141803233663_3_alg».proof.Proof.Gen.KernelIdeal.Skeleton
import proofs.«419284_j6141803233663_3_alg».proof.Proof.Matmul
import proofs.«419284_j6141803233663_3_alg».proof.Proof.EdgeSpec
import Idealize.ShloMosaic.Lib.Pipeline.Value
import Idealize.ShloMosaic.Lib.ValueLayout

noncomputable section

open scoped BigOperators

namespace Cert.EdgeHead

open Idealize.ShloMosaic Idealize.ShloMosaic.ValueIdx Cert.KernelIdeal Cert.KernelIdeal.Gen

/-! ### The one-hot table -/

/-- A row index below 2048 written as a 32-bit word is a given word exactly when the word, read unsigned, is the index. -/
theorem onehot_index_eq_iff (n : Fin 2048) (w : BitVec 32) : BitVec.ofNat 32 n.val = w ↔ w.toNat = n.val := by
  have hn : n.val < 2 ^ 32 := by have := n.isLt; omega
  constructor
  · rintro rfl
    rw [BitVec.toNat_ofNat, Nat.mod_eq_of_lt hn]
  · intro h
    apply BitVec.eq_of_toNat_eq
    rw [BitVec.toNat_ofNat, Nat.mod_eq_of_lt hn, h]

/-- The equality bit of two words, widened to 32 bits and read as a signed integer, is the extended real 1 when the
    words agree and 0 when they differ. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · have hc : IntOp.cmpi .eq a b = 1#1 := by simp [IntOp.cmpi, h]
    have h1 : ((1#1 : BitVec 1).setWidth 32).toInt = 1 := by decide
    rw [hc, if_pos h, h1]
    simp
  · have hc : IntOp.cmpi .eq a b = 0#1 := by simp [IntOp.cmpi, beq_false_of_ne h]
    have h0 : ((0#1 : BitVec 1).setWidth 32).toInt = 0 := by decide
    rw [hc, if_neg h, h0]
    simp

/-- The body's [2048, 2048] table for a row of words: the row index compared with the column's word, as a float. -/
def onehot (x : Vec Ideal S1x1x2048 .i32) (hc : S1x1x2048.ShapeCasts S1x2048) (hi : S2048x2048.Iotas .tc 32 [0])
    (hb : S1x2048.Broadcasts S2048x2048) (h1 : 1 < 32) (hf : FTy.bits .bf16 < FTy.bits .f32) : FVec Ideal S2048x2048 .bf16 :=
  truncf .bf16 (sitofp .f32 (extui 32 (cmpi .eq (iota .tc S2048x2048 32 [0] hi)
    (broadcastTo S2048x2048 (shapeCast S1x2048 x hc) hb)) h1)) hf

/-- Entry (n, j) of the table is 1 when the word of column j, read unsigned, is n, and 0 otherwise. -/
theorem onehot_apply (x : Vec Ideal S1x1x2048 .i32) (hc : S1x1x2048.ShapeCasts S1x2048) (hi : S2048x2048.Iotas .tc 32 [0])
    (hb : S1x2048.Broadcasts S2048x2048) (h1 : 1 < 32) (hf : FTy.bits .bf16 < FTy.bits .f32) (n j : Fin 2048) :
    (onehot x hc hi hb h1 hf (ix2 n j) : EReal) = if BitVec.toNat (x (ix3 0 0 j)) = n.val then 1 else 0 := by
  have e1 : iota .tc S2048x2048 32 [0] hi (ix2 n j) = BitVec.ofNat 32 n.val :=
    iota_single_apply .tc S2048x2048 32 0 hi (ix2 n j)
  have e2 : broadcastTo S2048x2048 (shapeCast S1x2048 x hc) hb (ix2 n j) = x (ix3 0 0 j) :=
    (broadcastTo_1b_ab_apply _ hb n j).trans (shapeCast_1ab_ab_apply x hc 0 j)
  show (FloatOps.sitofp (F := Ideal) .f32 ((IntOp.cmpi .eq (iota .tc S2048x2048 32 [0] hi (ix2 n j))
    (broadcastTo S2048x2048 (shapeCast S1x2048 x hc) hb (ix2 n j))).setWidth 32) : EReal) = _
  rw [e1, e2, onehot_word]
  exact if_congr (onehot_index_eq_iff n _) rfl rfl

/-- A [64, 2048] array times the table, summed over the rows of the table: only the row the word names is left. -/
theorem sum_onehot (a : FVec Ideal S64x2048 .bf16) (x : Vec Ideal S1x1x2048 .i32) (hc : S1x1x2048.ShapeCasts S1x2048)
    (hi : S2048x2048.Iotas .tc 32 [0]) (hb : S1x2048.Broadcasts S2048x2048) (h1 : 1 < 32) (hf : FTy.bits .bf16 < FTy.bits .f32)
    (e : Fin 64) (j s : Fin 2048) (hs : BitVec.toNat (x (ix3 0 0 j)) = s.val) :
    ∑ n : Fin 2048, (a (ix2 e n) : EReal) * onehot x hc hi hb h1 hf (ix2 n j) = a (ix2 e s) := by
  rw [Finset.sum_eq_single s]
  · rw [onehot_apply, if_pos hs, mul_one]
  · intro n _ hn
    rw [onehot_apply, if_neg (fun h => hn (Fin.ext (h.symm.trans hs))), mul_zero]
  · intro h
    exact absurd (Finset.mem_univ s) h

/-- The same sum for an array that is zero everywhere is zero. -/
theorem sum_onehot_zero (a : FVec Ideal S64x2048 .bf16) (b : FVec Ideal S2048x2048 .bf16) (e : Fin 64) (j : Fin 2048)
    (ha : ∀ (e : Fin 64) (n : Fin 2048), (a (ix2 e n) : EReal) = 0) :
    ∑ n : Fin 2048, (a (ix2 e n) : EReal) * b (ix2 n j) = 0 :=
  Finset.sum_eq_zero fun n _ => by rw [ha, zero_mul]

/-- The gathered features: the hi product plus the lo product, at (e, j), is hi at (e, s) when the word of column j
    names s and lo is zero. -/
theorem onehot_gathered_apply (hi lo : FVec Ideal S64x2048 .bf16) (x : Vec Ideal S1x1x2048 .i32) (hc : S1x1x2048.ShapeCasts S1x2048)
    (hI : S2048x2048.Iotas .tc 32 [0]) (hb : S1x2048.Broadcasts S2048x2048) (h1 : 1 < 32) (hf : FTy.bits .bf16 < FTy.bits .f32)
    (e : Fin 64) (j s : Fin 2048) (hs : BitVec.toNat (x (ix3 0 0 j)) = s.val)
    (hlo : ∀ (e : Fin 64) (n : Fin 2048), (lo (ix2 e n) : EReal) = 0) :
    (addf (FloatOps.matmul dot_S64x2048_S2048x2048_S64x2048_1_0_0_1_n_n none hi (onehot x hc hI hb h1 hf)
            (constant (F := Ideal) S64x2048 .f32 0x00000000#32))
          (FloatOps.matmul dot_S64x2048_S2048x2048_S64x2048_1_0_0_1_n_n none lo (onehot x hc hI hb h1 hf)
            (constant (F := Ideal) S64x2048 .f32 0x00000000#32)) (ix2 e j) : EReal) = hi (ix2 e s) := by
  refine (addf_apply _ _ _).trans ?_
  rw [gather_matmul, gather_matmul, sum_onehot hi x hc hI hb h1 hf e j s hs, sum_onehot_zero lo _ e j hlo, add_zero]

/-- Entry (d, j) of the first layer before its bias, when the words of column j name nodes s and t and the lo half is zero. -/
theorem layer1_apply (hi lo : Vec Ideal S64x2048 .bf16) (x3 x4 : Vec Ideal S1x1x2048 .i32) (x6 x7 : Vec Ideal S64x64 .f32)
    (d : Fin 64) (j : Fin 2048) (s t : Fin 2048)
    (hs : BitVec.toNat (x3 (ix3 0 0 j)) = s.val) (ht : BitVec.toNat (x4 (ix3 0 0 j)) = t.val)
    (hlo : ∀ (e : Fin 64) (n : Fin 2048), (lo (ix2 e n) : EReal) = 0) :
    k0_pay5 (F := Ideal) hi lo x3 x4 x6 x7 (ix2 d j)
      = (∑ e : Fin 64, x6 (ix2 d e) * (hi (ix2 e s) : EReal)) + (∑ e : Fin 64, x7 (ix2 d e) * (hi (ix2 e t) : EReal)) := by
  unfold k0_pay5
  refine (addf_apply _ _ _).trans ?_
  simp only [matmul]
  rw [layer1_matmul, layer1_matmul]
  congr 1
  · refine Finset.sum_congr rfl fun e _ => ?_
    rw [shapeCast_self]
    exact congrArg _ (onehot_gathered_apply hi lo x3 _ _ _ _ _ e j s hs hlo)
  · refine Finset.sum_congr rfl fun e _ => ?_
    rw [shapeCast_self]
    exact congrArg _ (onehot_gathered_apply hi lo x4 _ _ _ _ _ e j t ht hlo)

end Cert.EdgeHead

end
-- ==== Proof.PayOut.lean ====
/-
  The output block as the kernel body computes it, entry by entry.

  The block is [1, 4, 2048]: rows 0 and 1 are the first two rows v46 of the line-parameter block, rows 2 and 3 the
  second layer: with v32 the first layer before its bias ([64, 2048]), x8 its bias column, x9 the [2, 64] weight and
  x10 the [2, 1] bias, row 2 + o at column j is
      (sum over d < 64 of x9[o, d] * max (v32[d, j] + x8[d, 0]) 0) + x10[o, 0].
-/
import proofs.«419284_j6141803233663_3_alg».proof.Proof.Gen.KernelIdeal.Skeleton
import proofs.«419284_j6141803233663_3_alg».proof.Proof.Matmul
import proofs.«419284_j6141803233663_3_alg».proof.Proof.EdgeSpec
import Idealize.ShloMosaic.Lib.Pipeline.Value
import Idealize.ShloMosaic.Lib.ValueLayout

noncomputable section

open scoped BigOperators

namespace Cert.EdgeHead

open Idealize.ShloMosaic Idealize.ShloMosaic.ValueIdx Cert.KernelIdeal Cert.KernelIdeal.Gen

/-- An `[a, 1]` column broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- along the rows the column keeps its coordinate, unless it has a single row, and then that coordinate is 0
    show p.val = if a = 1 then 0 else p.val
    split
    · have := p.isLt; omega
    · rfl
  | ⟨1, _⟩ => rfl

/-- Rows 0 and 1 of the block: the line-parameter rows. -/
theorem out_keep_apply (v32 : FVec Ideal S64x2048 .f32) (x8 : Vec Ideal S64x1 .f32) (x9 : Vec Ideal S2x64 .f32) (x10 : Vec Ideal S2x1 .f32)
    (v46 : Vec Ideal S1x2x2048 .f32) (o : Fin 2) (j : Fin 2048) :
    k0_pay1 (F := Ideal) v32 x8 x9 x10 v46 (ix3 0 ⟨o.val, by omega⟩ j) = v46 (ix3 0 o j) := by
  unfold k0_pay1
  -- the block with its unit axis added reads (o, j) of the [4, 2048] stack at (0, o, j)
  rw [shapeCast_ab_1ab_apply]
  -- rows 0 and 1 of the stack are its first piece, at the same coordinates
  refine (concatenate_pair_apply_left (0 : Fin S4x2048.rank) _ _ concatenates_S2x2048_S2x2048_S4x2048_d0
    (ix2 ⟨o.val, by omega⟩ j) rfl (ix2 o j) fun b => ?_).trans ?_
  · match b with
    | ⟨0, _⟩ => rfl
    | ⟨1, _⟩ => rfl
  · -- the line-parameter block with its unit axis dropped reads (0, o, j) at (o, j)
    exact shapeCast_1ab_ab_apply v46 _ o j

/-- Rows 2 and 3 of the block: the second layer on the rectified first layer. -/
theorem out_head_apply (v32 : FVec Ideal S64x2048 .f32) (x8 : Vec Ideal S64x1 .f32) (x9 : Vec Ideal S2x64 .f32) (x10 : Vec Ideal S2x1 .f32)
    (v46 : Vec Ideal S1x2x2048 .f32) (o : Fin 2) (j : Fin 2048) :
    k0_pay1 (F := Ideal) v32 x8 x9 x10 v46 (ix3 0 ⟨2 + o.val, by omega⟩ j)
      = (∑ d : Fin 64, x9 (ix2 o d) * max (v32 (ix2 d j) + x8 (ix2 d 0)) 0) + x10 (ix2 o 0) := by
  unfold k0_pay1
  -- the block with its unit axis added reads (2 + o, j) of the [4, 2048] stack at (0, 2 + o, j)
  rw [shapeCast_ab_1ab_apply]
  -- rows 2 and 3 of the stack are its second piece, two rows up
  refine (concatenate_pair_apply_right (0 : Fin S4x2048.rank) _ _ concatenates_S2x2048_S2x2048_S4x2048_d0
    (ix2 ⟨2 + o.val, by omega⟩ j) rfl rfl (ix2 o j) (fun b hb => ?_) ?_).trans ?_
  · match b with
    | ⟨0, _⟩ => exact absurd rfl hb
    | ⟨1, _⟩ => rfl
  · show o.val + 2 = 2 + o.val
    omega
  · -- the sum of the product and the broadcast bias, read at (o, j); the same-shape casts are the identity
    rw [addf_apply, shapeCast_self, shapeCast_self, shapeCast_self, broadcastTo_a1_ab_apply]
    refine congrArg (· + x10 (ix2 o 0)) ?_
    refine (layer2_matmul _ _ o j).trans ?_
    refine Finset.sum_congr rfl fun d _ => ?_
    -- the rectified first layer at (d, j): the larger of the biased value and the zero word, which reads 0
    rw [maximumf_apply, addf_apply, broadcastTo_a1_ab_apply, broadcast_apply]
    show x9 (ix2 o d) * max (v32 (ix2 d j) + x8 (ix2 d 0)) (Ideal.ofBits .f32 0x00000000#32) = _
    rw [Ideal.ofBits_zero_f32]

end Cert.EdgeHead

end
-- ==== Proof.Carry.lean ====
/-
  What the carried buffers and the output block hold after every grid point.

  Points 16 b, 16 b + 1, …, 16 b + 15 work on batch b. The first of them writes the batch's embedding into the
  carried pair: the hi half holds feat b n e at (e, n), and the lo half, the embedding minus itself, holds zero
  because every embedding entry is a real number (a finite sum of products of real inputs plus a real bias). The
  other fifteen leave the pair alone. So after every point t the pair holds batch (t / 16)'s embedding and zeros:
  by induction on t, the step from t - 1 to t inside a batch keeping the batch.

  With that, entry (0, o, j) of the output block after point t is entry (t / 16, (t % 16) * 2048 + j, o) of the
  specification: rows 0 and 1 copy the line parameters; rows 2 and 3 are the second layer over the rectified first
  layer over the two gathered feature rows, the gather being the one-hot product, which picks the row of the node
  the edge's index word names.
-/
import proofs.«419284_j6141803233663_3_alg».proof.Proof.Pieces
import proofs.«419284_j6141803233663_3_alg».proof.Proof.Blocks
import proofs.«419284_j6141803233663_3_alg».proof.Proof.PayEmbed
import proofs.«419284_j6141803233663_3_alg».proof.Proof.PayGather
import proofs.«419284_j6141803233663_3_alg».proof.Proof.PayOut

noncomputable section

open scoped BigOperators

open Idealize.ShloMosaic Idealize.ShloMosaic.TcCoe Idealize.SL.Sem Idealize.ShloMosaic.ValueIdx

namespace Cert.EdgeHead

open Cert.KernelIdeal Cert.KernelIdeal.Gen

/-! ### Real numbers among the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

variable (m : (ℓ : Loc nD τ sig) → Buf (Elt Ideal) ℓ) (c : Dev nD)

/-- Batch b's embedding of node n, feature d, from the argument arrays on core c. -/
abbrev featOf (b : Fin 32) (n : Fin 2048) (d : Fin 64) : EReal := feat (argPn m c) (argWe m c) (argBe m c) b n d

theorem featOf_real (hpn : ∀ i, IsReal (argPn m c i)) (hWe : ∀ i, IsReal (argWe m c i)) (hbe : ∀ i, IsReal (argBe m c i))
    (b : Fin 32) (n : Fin 2048) (d : Fin 64) : IsReal (featOf m c b n d) :=
  (IsReal.sum _ _ fun i => (hWe _).mul (hpn _)).add (hbe _)

/-- The embedding computed from point t's blocks is batch (t / 16)'s. -/
theorem embed_blocks (t : Fin cfg0.N) (d : Fin 64) (n : Fin 2048) :
    k0_pay2 (F := Ideal) (embWBlk m c t) (nodesBlk m c t) (embBBlk m c t) (ix2 d n) = featOf m c (batchOf t) n d := by
  rw [embed_apply]
  unfold featOf feat
  rw [embBBlk_apply]
  refine congrArg (· + _) (Finset.sum_congr rfl fun i _ => ?_)
  rw [embWBlk_apply, nodesBlk_apply]

section Carried

/-- Points of one batch: the point before a later point of a batch works on the same batch. -/
theorem batchOf_pred (n : ℕ) (hn : n + 1 < cfg0.N) (h0 : ¬(n + 1) % 16 = 0) :
    batchOf ⟨n, Nat.lt_of_succ_lt hn⟩ = batchOf ⟨n + 1, hn⟩ := by
  unfold batchOf; apply Fin.ext; show n / 16 = (n + 1) / 16; omega

/-- After every point the carried pair holds the point's batch's embedding and zeros. -/
theorem carried (hpn : ∀ i, IsReal (argPn m c i)) (hWe : ∀ i, IsReal (argWe m c i)) (hbe : ∀ i, IsReal (argBe m c i)) :
    ∀ (n : ℕ) (hn : n < cfg0.N),
    (∀ (e : Fin 64) (k : Fin 2048), ((outsAt0 m c n hn).2.1 (ix2 e k) : EReal) = featOf m c (batchOf ⟨n, hn⟩) k e)
    ∧ (∀ (e : Fin 64) (k : Fin 2048), ((outsAt0 m c n hn).2.2 (ix2 e k) : EReal) = 0) := by
  intro n
  induction n with
  | zero =>
    intro hn
    have h0 : (⟨0, hn⟩ : Fin cfg0.N).val % 16 = 0 := rfl
    rw [outsAt0_A m c ⟨0, hn⟩ h0]
    dsimp only
    rw [hi_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      lo_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)]
    refine ⟨fun e k => ?_, fun e k => ?_⟩
    · rw [hi_apply]; exact embed_blocks m c ⟨0, hn⟩ e k
    · refine lo_apply _ _ _ _ ?_
      rw [embed_blocks m c ⟨0, hn⟩ e k]; exact featOf_real m c hpn hWe hbe _ _ _
  | succ n ih =>
    intro hn
    by_cases h0 : (n + 1) % 16 = 0
    · have h0' : (⟨n + 1, hn⟩ : Fin cfg0.N).val % 16 = 0 := h0
      rw [outsAt0_A m c ⟨n + 1, hn⟩ h0']
      dsimp only
      rw [hi_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0') (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩),
        lo_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0') (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩)]
      refine ⟨fun e k => ?_, fun e k => ?_⟩
      · rw [hi_apply]; exact embed_blocks m c ⟨n + 1, hn⟩ e k
      · refine lo_apply _ _ _ _ ?_
        rw [embed_blocks m c ⟨n + 1, hn⟩ e k]; exact featOf_real m c hpn hWe hbe _ _ _
    · have h0' : ¬(⟨n + 1, hn⟩ : Fin cfg0.N).val % 16 = 0 := h0
      rw [outsAt0_B m c ⟨n + 1, hn⟩ h0']
      dsimp only
      have ihn := ih (Nat.lt_of_succ_lt hn)
      rw [← batchOf_pred n hn h0]
      exact ihn

end Carried

section Scored

variable (hsrc : ∀ i, (argSrc m c i).toNat < 2048) (hdst : ∀ i, (argDst m c i).toNat < 2048)

/-- The specification's entry, from the argument arrays on core c. -/
abbrev outOf (b : Fin 32) (l : Fin 32768) (o : Fin 4) : EReal :=
  outAt (argPn m c) (argLp m c) (argWe m c) (argBe m c) (argW1 m c) (argB1 m c) (argW2 m c) (argB2 m c) (argSrc m c) (argDst m c) b l o

/-- Rows 0 and 1 of a [1, 4, 2048] block, read at an entry. -/
theorem topRows_apply (x5 : Vec Ideal S1x4x2048 .f32) (o : Fin 2) (j : Fin 2048) :
    topRows x5 (ix3 0 o j) = x5 (ix3 0 ⟨o.val, by omega⟩ j) := by
  show x5 _ = x5 _
  congr 1
  funext a
  apply Fin.ext
  match a with
  | ⟨0, _⟩ => rfl
  | ⟨1, _⟩ => show 0 + 1 * o.val = o.val; omega
  | ⟨2, _⟩ => show 0 + 1 * j.val = j.val; omega

/-- Rows 0 and 1 of the scored block at point t are the line parameters of the tile's edges. -/
theorem score_keep (t : Fin cfg0.N) (hi lo : Vec Ideal S64x2048 .bf16) (o : Fin 2) (j : Fin 2048) :
    score hi lo (srcBlk m c t) (dstBlk m c t) (lpBlk m c t) (w1sBlk m c t) (w1tBlk m c t) (b1Blk m c t) (w2Blk m c t) (b2Blk m c t)
        (ix3 0 ⟨o.val, by omega⟩ j)
      = outOf m c (batchOf t) (edgeOf t j) ⟨o.val, by omega⟩ := by
  unfold score
  rw [out_keep_apply, topRows_apply, lpBlk_apply]
  unfold outOf outAt
  rw [if_pos (show (⟨o.val, _⟩ : Fin 4).val < 2 from o.isLt)]

include hsrc hdst in
/-- Rows 2 and 3 of the scored block at point t are the head on the tile's edges, when the halves hold the batch's
    embedding and zeros. -/
theorem score_head (t : Fin cfg0.N) (hi lo : Vec Ideal S64x2048 .bf16)
    (hhi : ∀ (e : Fin 64) (k : Fin 2048), (hi (ix2 e k) : EReal) = featOf m c (batchOf t) k e)
    (hlo : ∀ (e : Fin 64) (k : Fin 2048), (lo (ix2 e k) : EReal) = 0) (o : Fin 2) (j : Fin 2048) :
    score hi lo (srcBlk m c t) (dstBlk m c t) (lpBlk m c t) (w1sBlk m c t) (w1tBlk m c t) (b1Blk m c t) (w2Blk m c t) (b2Blk m c t)
        (ix3 0 ⟨2 + o.val, by omega⟩ j)
      = outOf m c (batchOf t) (edgeOf t j) (headCol o) := by
  have hs : BitVec.toNat (srcBlk m c t (ix3 0 0 j)) = (nodeOf (argSrc m c (ix2 (batchOf t) (edgeOf t j)))).val := by
    rw [srcBlk_apply m c t j (hsrc _), nodeOf_val_of_lt (hsrc _)]
  have ht : BitVec.toNat (dstBlk m c t (ix3 0 0 j)) = (nodeOf (argDst m c (ix2 (batchOf t) (edgeOf t j)))).val := by
    rw [dstBlk_apply m c t j (hdst _), nodeOf_val_of_lt (hdst _)]
  unfold score
  rw [out_head_apply]
  unfold outOf outAt
  rw [if_neg (show ¬(headCol o).val < 2 by unfold headCol; show ¬(2 + o.val < 2); omega)]
  unfold headOut
  rw [b2Blk_apply]
  refine congrArg (· + _) (Finset.sum_congr rfl fun d _ => ?_)
  rw [w2Blk_apply, layer1_apply hi lo _ _ _ _ d j _ _ hs ht hlo, b1Blk_apply]
  unfold hid
  refine congrArg (fun z => argW2 m c (ix2 d (headCol o)) * max (z + argB1 m c (ix1 d)) 0) ?_
  refine congrArg₂ (· + ·) (Finset.sum_congr rfl fun e _ => ?_) (Finset.sum_congr rfl fun e _ => ?_)
  · rw [w1sBlk_apply, hhi]
  · rw [w1tBlk_apply, hhi]

end Scored

end Cert.EdgeHead

end
-- ==== Proof.Whole.lean ====
/-
  The kernel's result array.

  After point t the output block holds, at (0, o, j), the specification's entry (t / 16, (t % 16) * 2048 + j, o):
  at a batch's first point from the halves the point has just written, at a later point from the halves the point
  before left, both of which hold the batch's embedding and zeros. Every point writes its block back to block
  (t / 16, 0, t % 16) of the region's [32, 4, 32768] result, and the 512 blocks tile that array, so the region's result
  is the specification with its last two axes exchanged; the transpose after the region exchanges them back.
-/
import proofs.«419284_j6141803233663_3_alg».proof.Proof.Carry
import Idealize.ShloMosaic.Lib.ValueLayout

noncomputable section

open scoped BigOperators

open Idealize.ShloMosaic Idealize.ShloMosaic.TcCoe Idealize.SL.Sem Idealize.ShloMosaic.ValueIdx
open Idealize.ShloMosaic.Pipeline (Dat)

namespace Cert.EdgeHead

open Cert.KernelIdeal Cert.KernelIdeal.Gen

variable (m : (ℓ : Loc nD τ sig) → Buf (Elt Ideal) ℓ) (ρ : Dev nD → PrngReg) (c : Dev nD)

/-- The inputs' facts the proof uses, on core c. -/
structure InputsOk : Prop where
  pn : ∀ i, IsReal (argPn m c i)
  we : ∀ i, IsReal (argWe m c i)
  be : ∀ i, IsReal (argBe m c i)
  src : ∀ i, (argSrc m c i).toNat < 2048
  dst : ∀ i, (argDst m c i).toNat < 2048

/-- The halves a batch's first point writes hold the batch's embedding and zeros. -/
theorem first_halves (h : InputsOk m c) (t : Fin cfg0.N) :
    (∀ (e : Fin 64) (k : Fin 2048), (k0_pay3 (F := Ideal) (embWBlk m c t) (nodesBlk m c t) (embBBlk m c t) (ix2 e k) : EReal) = featOf m c (batchOf t) k e)
    ∧ (∀ (e : Fin 64) (k : Fin 2048), (k0_pay4 (F := Ideal) (embWBlk m c t) (nodesBlk m c t) (embBBlk m c t) (ix2 e k) : EReal) = 0) := by
  refine ⟨fun e k => ?_, fun e k => ?_⟩
  · rw [hi_apply]; exact embed_blocks m c t e k
  · refine lo_apply _ _ _ _ ?_
    rw [embed_blocks m c t e k]; exact featOf_real m c h.pn h.we h.be _ _ _

/-- An entry of a scored block whose halves hold the batch's embedding and zeros. -/
theorem score_entry (h : InputsOk m c) (t : Fin cfg0.N) (hi lo : Vec Ideal S64x2048 .bf16)
    (hhi : ∀ (e : Fin 64) (k : Fin 2048), (hi (ix2 e k) : EReal) = featOf m c (batchOf t) k e)
    (hlo : ∀ (e : Fin 64) (k : Fin 2048), (lo (ix2 e k) : EReal) = 0) (o : Fin 4) (j : Fin 2048) :
    score hi lo (srcBlk m c t) (dstBlk m c t) (lpBlk m c t) (w1sBlk m c t) (w1tBlk m c t) (b1Blk m c t) (w2Blk m c t) (b2Blk m c t) (ix3 0 o j)
      = outOf m c (batchOf t) (edgeOf t j) o := by
  match o with
  | ⟨0, _⟩ => exact score_keep m c t hi lo 0 j
  | ⟨1, _⟩ => exact score_keep m c t hi lo 1 j
  | ⟨2, _⟩ => exact score_head m c h.src h.dst t hi lo hhi hlo 0 j
  | ⟨3, _⟩ => exact score_head m c h.src h.dst t hi lo hhi hlo 1 j

/-- The output block after point n, at an entry. -/
theorem out_entry (h : InputsOk m c) : ∀ (n : ℕ) (hn : n < cfg0.N) (o : Fin 4) (j : Fin 2048),
    (outsAt0 m c n hn).1 (ix3 0 o j) = outOf m c (batchOf ⟨n, hn⟩) (edgeOf ⟨n, hn⟩ j) o := by
  intro n hn o j
  by_cases h0 : n % 16 = 0
  · have h0' : (⟨n, hn⟩ : Fin cfg0.N).val % 16 = 0 := h0
    rw [outsAt0_A m c ⟨n, hn⟩ h0']
    dsimp only
    rw [out_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) scM0_0 (Memref.isWhole_whole _) scM0_1 (Memref.isWhole_whole _) ((hcond0_0 ⟨n, hn⟩).mpr h0') (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩)]
    exact score_entry m c h ⟨n, hn⟩ _ _ (first_halves m c h ⟨n, hn⟩).1 (first_halves m c h ⟨n, hn⟩).2 o j
  · cases n with
    | zero => exact absurd rfl h0
    | succ n =>
      have h0' : ¬(⟨n + 1, hn⟩ : Fin cfg0.N).val % 16 = 0 := h0
      rw [outsAt0_B m c ⟨n + 1, hn⟩ h0']
      dsimp only
      refine (congrFun (out_later (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun hc => h0' ((hcond0_0 ⟨n + 1, hn⟩).mp hc)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) _ _) (ix3 0 o j)).trans ?_
      have ihn := carried m c h.pn h.we h.be n (Nat.lt_of_succ_lt hn)
      rw [batchOf_pred n hn h0] at ihn
      exact score_entry m c h ⟨n + 1, hn⟩ _ _ ihn.1 ihn.2 o j

/-- The region's result array, [32, 4, 32768]: the specification with its last two axes exchanged. -/
def outT : FVec Ideal S32x4x32768 .f32 := fun i => outOf m c (i 0) (i 2) (i 1)

/-- Where point t's output block lies: block (t / 16, 0, t % 16). -/
theorem out_index : ∀ t : Fin cfg0.N, win0_11.index t (0 : Fin 3) = t.val / 16 ∧ win0_11.index t (1 : Fin 3) = 0
    ∧ win0_11.index t (2 : Fin 3) = t.val % 16 :=
  (by decide +kernel : ∀ t : Fin grid0.N, _)

/-- What point t writes back is block t of the exchanged specification. -/
theorem flushed_eq (h : InputsOk m c) (t : Fin cfg0.N) :
    (dats m 0 c).flushed 11 t = ((cfg0.win 11).blk t).view.read (Elt Ideal) (outT m c) := by
  show (cfg0.win 11).cut (grid0.coords t) ((dats m 0 c).after 11 t) = _
  rw [after0_11]
  obtain ⟨e0, e1, e2⟩ := out_index t
  refine funext fun (y : S1x4x2048.Idx) => ?_
  obtain ⟨y0, o, j, rfl⟩ : ∃ (y0 : Fin 1) (o : Fin 4) (j : Fin 2048), y = ix3 y0 o j := ⟨y 0, y 1, y 2, eq_ix3 y⟩
  obtain rfl : y0 = 0 := Subsingleton.elim _ _
  show (outsAt0 m c t.val t.isLt).1 (ix3 0 o j) = outT m c (((cfg0.win 11).blk t).view.emb (ix3 0 o j))
  rw [out_entry m c h t.val t.isLt o j]
  unfold outT
  have hb : batchOf ⟨t.val, t.isLt⟩ = ((cfg0.win 11).blk t).view.emb (ix3 0 o j) 0 := by
    apply Fin.ext
    show t.val / 16 = win0_11.index t (0 : Fin 3) * 1 + 1 * 0
    omega
  have he : edgeOf ⟨t.val, t.isLt⟩ j = ((cfg0.win 11).blk t).view.emb (ix3 0 o j) 2 := by
    apply Fin.ext
    show t.val % 16 * 2048 + j.val = win0_11.index t (2 : Fin 3) * 2048 + 1 * j.val
    rw [e2]; omega
  have ho : o = ((cfg0.win 11).blk t).view.emb (ix3 0 o j) 1 := by
    apply Fin.ext
    show o.val = win0_11.index t (1 : Fin 3) * 4 + 1 * o.val
    rw [e1]; omega
  rw [hb, he]
  exact congrArg _ ho

/-- An index of the region's result is in point t's block when each coordinate is in the block's range. -/
theorem mem_blk (t : Fin cfg0.N) (i : S32x4x32768.Idx) :
    i ∈ ((cfg0.win 11).blk t).view.set ↔ ∀ a : Fin 3, win0_11.index t a * S1x4x2048.size a ≤ (i a).val ∧ (i a).val < win0_11.index t a * S1x4x2048.size a + S1x4x2048.size a := by
  show i ∈ ((View.whole main_v16).slice (win0_11.rect t)).set ↔ _
  rw [View.set_slice_whole, Rect.mem_set_unit]
  exact Iff.rfl

/-- The region's result array after the run: the 512 blocks tile it (entry (b, o, l) is written by point
    16 b + l / 2048). -/
theorem final (h : InputsOk m c) : (dats m 0 c).arrAt 11 cfg0.N = outT m c :=
  (dats m 0 c).arrAt_eq_of_cover 11 (outT m c) (fun t _ => flushed_eq m c h t) fun i => by
    have hi0 : (i 0 : Nat) < 32 := (i 0).isLt
    have hi1 : (i 1 : Nat) < 4 := (i 1).isLt
    have hi2 : (i 2 : Nat) < 32768 := (i 2).isLt
    have hN : cfg0.N = 512 := N_0
    have hlt : (i 0 : Nat) * 16 + (i 2 : Nat) / 2048 < cfg0.N := by rw [hN]; omega
    obtain ⟨e0, e1, e2⟩ := out_index ⟨(i 0 : Nat) * 16 + (i 2 : Nat) / 2048, hlt⟩
    have e0' : win0_11.index ⟨(i 0 : Nat) * 16 + (i 2 : Nat) / 2048, hlt⟩ (0 : Fin 3) = ((i 0 : Nat) * 16 + (i 2 : Nat) / 2048) / 16 := e0
    have e2' : win0_11.index ⟨(i 0 : Nat) * 16 + (i 2 : Nat) / 2048, hlt⟩ (2 : Fin 3) = ((i 0 : Nat) * 16 + (i 2 : Nat) / 2048) % 16 := e2
    refine ⟨⟨(i 0 : Nat) * 16 + (i 2 : Nat) / 2048, hlt⟩, flush0_11 _, ?_⟩
    rw [mem_blk]
    intro a
    match a with
    | ⟨0, _⟩ =>
      show win0_11.index _ (0 : Fin 3) * 1 ≤ (i 0 : Nat) ∧ (i 0 : Nat) < win0_11.index _ (0 : Fin 3) * 1 + 1
      rw [e0']; omega
    | ⟨1, _⟩ =>
      show win0_11.index _ (1 : Fin 3) * 4 ≤ (i 1 : Nat) ∧ (i 1 : Nat) < win0_11.index _ (1 : Fin 3) * 4 + 4
      rw [e1]; omega
    | ⟨2, _⟩ =>
      show win0_11.index _ (2 : Fin 3) * 2048 ≤ (i 2 : Nat) ∧ (i 2 : Nat) < win0_11.index _ (2 : Fin 3) * 2048 + 2048
      rw [e2']; omega

/-- The specification's whole result, from the argument arrays on core c. -/
abbrev resultOf : FVec Ideal S32x32768x4 .f32 :=
  result (argPn m c) (argLp m c) (argWe m c) (argBe m c) (argW1 m c) (argB1 m c) (argW2 m c) (argB2 m c) (argSrc m c) (argDst m c)

/-- The program's result buffer after the transpose that follows the region. -/
theorem tail_eq (h : InputsOk m c) :
    Pipeline.afterTail₀ cfgs (dats m) 0 (V0 m) [hostOps1] c main_v17 = resultOf m c := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = outT m c := (Pipeline.withArrays_arr spec0 launch0.win.arr_inj c _ _ 11).trans (final m c h)
  rw [e]
  funext i
  obtain ⟨b, l, o, rfl⟩ : ∃ (b : Fin 32) (l : Fin 32768) (o : Fin 4), i = ix3 b l o := ⟨i 0, i 1, i 2, eq_ix3 i⟩
  rw [transpose_ix3_021_apply]
  rfl

/-- The kernel's run, read: on every core whose inputs are as the precondition says, the result buffer ends at the
    specification and the arguments are unchanged. -/
theorem kernel_run (h : ∀ c, InputsOk m c) :
    θ_run defs (onTc (τ := τ) (main (F := Ideal))) ⟨m, fun _ => 0, ρ⟩ fun r => ∀ c : Dev nD,
      r.2.mem ((c.tc : Thread nD τ).loc main_v17) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ hr c => ⟨((hr c).2 main_v17 (Pipeline.mem_restRefs_of main_v17 (by decide) (by decide))).trans (tail_eq m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).2 main_arg6 (Pipeline.mem_restRefs_of main_arg6 (by decide) (by decide))).trans (W_main_arg6 m (dats m) c),
      ((hr c).2 main_arg7 (Pipeline.mem_restRefs_of main_arg7 (by decide) (by decide))).trans (W_main_arg7 m (dats m) c),
      ((hr c).2 main_arg8 (Pipeline.mem_restRefs_of main_arg8 (by decide) (by decide))).trans (W_main_arg8 m (dats m) c),
      ((hr c).2 main_arg9 (Pipeline.mem_restRefs_of main_arg9 (by decide) (by decide))).trans (W_main_arg9 m (dats m) c)⟩)
    (run_main m ρ)

end Cert.EdgeHead

end
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.LibHostLine3.lean ====
/- Steps of a host line (LibHostLine.lean) for the builders that file has no step for: an operation of three operands
   (`ternary`: a select, a scatter-add), and the typed-reference forms (`TRef.nullary`, `TRef.unary`, `TRef.binary`,
   `TRef.ternary`) in which a module-local function's body is stated, and which a call of that function therefore leaves
   in its caller's line once the body is unfolded at the call site; and the join of two stretches of a line (`line_append`).

   A typed reference `x : TRef sig T` carries its buffer `x.ref` and the equation `x.ty_eq : x.ref.ty = T`; its operation
   reads and writes the buffers through the transports `x.ofBuf` / `x.toBuf` along that equation. The steps below state
   the listed contents of an operand as `x.toBuf vx` for a `vx` at the value's own type `T`, and the result as
   `y.toBuf (f vx)`: the two transports of an operand cancel (`ofBuf_toBuf`), whatever the equation is. At a literal
   reference, whose equation is `rfl`, `x.toBuf vx` is `vx` by computation, so a use site lists plain contents. -/
import proofs.«419284_j6141803233663_3_alg».proof.Proof.LibHostLine

namespace HostLine

open Idealize.ShloMosaic Idealize.ShloMosaic.StableHlo Idealize.SL.Sem

variable {τ : Topo} {sig : RefSig} {Val : EltTy → Type}

/-- Transporting contents to a typed reference's buffer type and back is the identity. -/
theorem ofBuf_toBuf {T : BufTy} (x : TRef sig T) (v : T.Contents Val) : x.ofBuf (x.toBuf v) = v := by
  obtain ⟨ref, ty_eq, on_device, unscoped⟩ := x
  subst ty_eq
  rfl

/-- Two stretches in a row: what the first ends holding is what the second starts from. -/
theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

/-- An operation of three operands: the list holds each operand (by position), the result buffer is new to the list,
    and the listed result is the operation's function of the three listed contents. -/
theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

/-- A typed-reference operation of no operand. -/
theorem step_tnullary {y : TRef sig Ty} {v : Ty.Contents Val}
    (vy : y.ref.ty.Contents Val) (hv : vy = y.toBuf v) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.nullary y v :: rest) V) Lout :=
  step_nullary vy hv hfr k

/-- A typed-reference operation of one operand. -/
theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

/-- A typed-reference operation of two operands. -/
theorem step_tbinary {a : TRef sig Ta} {b : TRef sig Tb} {y : TRef sig Ty}
    {f : Ta.Contents Val → Tb.Contents Val → Ty.Contents Val}
    (i j : Nat) (va : Ta.Contents Val) (vb : Tb.Contents Val) (vy : y.ref.ty.Contents Val)
    (hi : L[i]? = some ⟨a.ref, a.toBuf va⟩) (hj : L[j]? = some ⟨b.ref, b.toBuf vb⟩)
    (hv : vy = y.toBuf (f va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.binary a b y f :: rest) V) Lout :=
  step_binary i j (a.toBuf va) (b.toBuf vb) vy hi hj
    (hv.trans (congrArg₂ (fun s t => y.toBuf (f s t)) (ofBuf_toBuf a va).symm (ofBuf_toBuf b vb).symm)) hfr k

/-- A typed-reference operation of three operands (a module-local `select`). -/
theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.RefLine.lean ====
/-
  The reference's run.

  The reference is a straight line of 65 host operations; every weakly fair execution of it terminates with each
  buffer at what the line computes from the arguments, and with the arguments unchanged. What the line computes for
  its result buffer is read here one operation at a time against a growing list of named buffer contents: each
  operation's result is named by the stage function the read-at-an-index module gives it (`val_<buffer>`), so a
  step checks one defining equation and no step composes the functions. The three called functions (the two gathers
  along the node axis and the rectifier) stand in the line as typed-reference operations, whose transports to and
  from a buffer's own type cancel at a literal reference. The last stage is the composed term the run states.
-/
import proofs.«419284_j6141803233663_3_alg».proof.Proof.RefRun
import proofs.«419284_j6141803233663_3_alg».proof.Proof.RefRead
import proofs.«419284_j6141803233663_3_alg».proof.Proof.LibHostLine3

noncomputable section

namespace Cert.ReferenceIdeal.Line

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

section Line

open HostLine Cert.ReferenceIdeal.ReadP

/-! ### Typed-reference operations at literal references

A called function's operations stand in the line as typed-reference operations whose references are literal buffers, with
the type equation `rfl`. There both transports are the identity by computation, so each such operation is the plain
operation of the same function, and its step reads and lists plain contents. -/

section Literal

variable {L Lout : List (Fact sig (Elt F))} {rest : List (HloOp τ sig (Elt F))}

/-- A typed-reference operation of no operand at a literal reference. -/
theorem step_lnullary {y : Ref sig .tc} {ody : y.space ≠ .host} {usy : y.isScoped = false} {v : y.ty.Contents (Elt F)}
    (vy : y.ty.Contents (Elt F)) (hv : vy = v) (hfr : (L.all fun p => decide (p.1 ≠ y)) = true)
    (k : ∀ V : Valuation τ sig (Elt F), Sat V (⟨y, vy⟩ :: L) → Sat (after rest V) Lout) :
    ∀ V : Valuation τ sig (Elt F), Sat V L → Sat (after (TRef.nullary (TRef.mk y rfl ody usy) v :: rest) V) Lout :=
  step_nullary vy hv hfr k

/-- A typed-reference operation of one operand at literal references. -/
theorem step_lunary {x y : Ref sig .tc} {odx : x.space ≠ .host} {usx : x.isScoped = false} {ody : y.space ≠ .host}
    {usy : y.isScoped = false} {f : x.ty.Contents (Elt F) → y.ty.Contents (Elt F)}
    (i : Nat) (vx : x.ty.Contents (Elt F)) (vy : y.ty.Contents (Elt F)) (hi : L[i]? = some ⟨x, vx⟩) (hv : vy = f vx)
    (hfr : (L.all fun p => decide (p.1 ≠ y)) = true)
    (k : ∀ V : Valuation τ sig (Elt F), Sat V (⟨y, vy⟩ :: L) → Sat (after rest V) Lout) :
    ∀ V : Valuation τ sig (Elt F), Sat V L →
      Sat (after (TRef.unary (TRef.mk x rfl odx usx) (TRef.mk y rfl ody usy) f :: rest) V) Lout :=
  step_unary i vx vy hi hv hfr k

/-- A typed-reference operation of two operands at literal references. -/
theorem step_lbinary {a b y : Ref sig .tc} {oda : a.space ≠ .host} {usa : a.isScoped = false} {odb : b.space ≠ .host}
    {usb : b.isScoped = false} {ody : y.space ≠ .host} {usy : y.isScoped = false}
    {f : a.ty.Contents (Elt F) → b.ty.Contents (Elt F) → y.ty.Contents (Elt F)}
    (i j : Nat) (va : a.ty.Contents (Elt F)) (vb : b.ty.Contents (Elt F)) (vy : y.ty.Contents (Elt F))
    (hi : L[i]? = some ⟨a, va⟩) (hj : L[j]? = some ⟨b, vb⟩) (hv : vy = f va vb)
    (hfr : (L.all fun p => decide (p.1 ≠ y)) = true)
    (k : ∀ V : Valuation τ sig (Elt F), Sat V (⟨y, vy⟩ :: L) → Sat (after rest V) Lout) :
    ∀ V : Valuation τ sig (Elt F), Sat V L →
      Sat (after (TRef.binary (TRef.mk a rfl oda usa) (TRef.mk b rfl odb usb) (TRef.mk y rfl ody usy) f :: rest) V) Lout :=
  step_binary i j va vb vy hi hj hv hfr k

/-- A typed-reference operation of three operands at literal references. -/
theorem step_lternary {c a b y : Ref sig .tc} {odc : c.space ≠ .host} {usc : c.isScoped = false} {oda : a.space ≠ .host}
    {usa : a.isScoped = false} {odb : b.space ≠ .host} {usb : b.isScoped = false} {ody : y.space ≠ .host}
    {usy : y.isScoped = false}
    {f : c.ty.Contents (Elt F) → a.ty.Contents (Elt F) → b.ty.Contents (Elt F) → y.ty.Contents (Elt F)}
    (i j l : Nat) (vc : c.ty.Contents (Elt F)) (va : a.ty.Contents (Elt F)) (vb : b.ty.Contents (Elt F))
    (vy : y.ty.Contents (Elt F)) (hi : L[i]? = some ⟨c, vc⟩) (hj : L[j]? = some ⟨a, va⟩) (hl : L[l]? = some ⟨b, vb⟩)
    (hv : vy = f vc va vb) (hfr : (L.all fun p => decide (p.1 ≠ y)) = true)
    (k : ∀ V : Valuation τ sig (Elt F), Sat V (⟨y, vy⟩ :: L) → Sat (after rest V) Lout) :
    ∀ V : Valuation τ sig (Elt F), Sat V L →
      Sat (after (TRef.ternary (TRef.mk c rfl odc usc) (TRef.mk a rfl oda usa) (TRef.mk b rfl odb usb)
        (TRef.mk y rfl ody usy) f :: rest) V) Lout :=
  step_ternary i j l vc va vb vy hi hj hl hv hfr k

end Literal

/-! ### The line, stretch by stretch -/

section Stretches

variable (a0 : (⟨S32x2048x4, .f32⟩ : BufTy).Contents (Elt F)) (a1 : (⟨S32x32768x4, .f32⟩ : BufTy).Contents (Elt F))
  (a2 : (⟨S4x64, .f32⟩ : BufTy).Contents (Elt F)) (a3 : (⟨S64, .f32⟩ : BufTy).Contents (Elt F))
  (a4 : (⟨S128x64, .f32⟩ : BufTy).Contents (Elt F)) (a5 : (⟨S64, .f32⟩ : BufTy).Contents (Elt F))
  (a6 : (⟨S64x4, .f32⟩ : BufTy).Contents (Elt F)) (a7 : (⟨S4, .f32⟩ : BufTy).Contents (Elt F))
  (a8 a9 : (⟨S32x32768, .i32⟩ : BufTy).Contents (Elt F))

/-- The ten arguments at their contents. -/
abbrev args : List (Fact sig (Elt F)) :=
  [⟨main_arg0, a0⟩, ⟨main_arg1, a1⟩, ⟨main_arg2, a2⟩, ⟨main_arg3, a3⟩, ⟨main_arg4, a4⟩, ⟨main_arg5, a5⟩, ⟨main_arg6, a6⟩,
   ⟨main_arg7, a7⟩, ⟨main_arg8, a8⟩, ⟨main_arg9, a9⟩]

/-- Operations 1 to 5: the node embedding, and the source words as a column. -/
theorem stretch1 : ∀ V : Valuation τ sig (Elt F), Sat V (args a0 a1 a2 a3 a4 a5 a6 a7 a8 a9) →
    Sat (after (List.take 5 (ops (F := F))) V)
      (⟨main_v4, val_main_v4 (F := F) a8⟩ :: ⟨main_v3, val_main_v3 (F := F) a0 a2 a3⟩ :: args a0 a1 a2 a3 a4 a5 a6 a7 a8 a9) := by
  refine step_binary 0 2 a0 a2 (val_main_v0 (F := F) a0 a2) rfl rfl rfl rfl ?_
  refine step_unary 4 a3 (val_main_v1 (F := F) a3) rfl rfl rfl ?_
  refine step_unary 0 (val_main_v1 (F := F) a3) (val_main_v2 (F := F) a3) rfl rfl rfl ?_
  refine step_binary 2 0 (val_main_v0 (F := F) a0 a2) (val_main_v2 (F := F) a3) (val_main_v3 (F := F) a0 a2 a3) rfl rfl rfl rfl ?_
  refine step_unary 12 a8 (val_main_v4 (F := F) a8) rfl rfl rfl ?_
  exact done [0, 1, 5, 6, 7, 8, 9, 10, 11, 12, 13, 14] rfl

/-- Operations 6 to 16, the first half of the gather of the source rows: the source word wrapped into the node range
    (2048 added to a negative word) and its lower range test. -/
theorem stretch2 : ∀ V : Valuation τ sig (Elt F),
    Sat V (⟨main_v4, val_main_v4 (F := F) a8⟩ :: ⟨main_v3, val_main_v3 (F := F) a0 a2 a3⟩ :: args a0 a1 a2 a3 a4 a5 a6 a7 a8 a9) →
    Sat (after (List.take 11 (List.drop 5 (ops (F := F)))) V)
      (⟨main_call0_v6, val_main_call0_v6 (F := F) a8⟩ :: ⟨main_call0_c_1, val_main_call0_c_1 (F := F)⟩
        :: ⟨main_call0_v4, val_main_call0_v4 (F := F) a8⟩ :: ⟨main_v3, val_main_v3 (F := F) a0 a2 a3⟩ :: args a0 a1 a2 a3 a4 a5 a6 a7 a8 a9) := by
  refine step_lnullary (val_main_call0_c (F := F)) rfl rfl ?_
  refine step_lunary 0 (val_main_call0_c (F := F)) (val_main_call0_v0 (F := F)) rfl rfl rfl ?_
  refine step_lbinary 2 0 (val_main_v4 (F := F) a8) (val_main_call0_v0 (F := F)) (val_main_call0_v1 (F := F) a8) rfl rfl rfl rfl ?_
  refine step_lnullary (val_main_call0_c_0 (F := F)) rfl rfl ?_
  refine step_lunary 0 (val_main_call0_c_0 (F := F)) (val_main_call0_v2 (F := F)) rfl rfl rfl ?_
  refine step_lbinary 5 0 (val_main_v4 (F := F) a8) (val_main_call0_v2 (F := F)) (val_main_call0_v3 (F := F) a8) rfl rfl rfl rfl ?_
  refine step_lternary 3 0 6 (val_main_call0_v1 (F := F) a8) (val_main_call0_v3 (F := F) a8) (val_main_v4 (F := F) a8)
    (val_main_call0_v4 (F := F) a8) rfl rfl rfl rfl rfl ?_
  refine step_lnullary (val_main_call0_c_1 (F := F)) rfl rfl ?_
  refine step_lnullary (val_main_call0_c_2 (F := F)) rfl rfl ?_
  refine step_lunary 0 (val_main_call0_c_2 (F := F)) (val_main_call0_v5 (F := F)) rfl rfl rfl ?_
  refine step_lbinary 3 0 (val_main_call0_v4 (F := F) a8) (val_main_call0_v5 (F := F)) (val_main_call0_v6 (F := F) a8) rfl rfl rfl rfl ?_
  exact done [0, 3, 4, 12, 13, 14, 15, 16, 17, 18, 19, 20, 21, 22] rfl

/-- Operations 17 to 27, the second half of the gather of the source rows: the upper range test, the rows of the node
    embedding at the wrapped words, and the not-a-number fill where a word is out of range. -/
theorem stretch3 : ∀ V : Valuation τ sig (Elt F),
    Sat V (⟨main_call0_v6, val_main_call0_v6 (F := F) a8⟩ :: ⟨main_call0_c_1, val_main_call0_c_1 (F := F)⟩
        :: ⟨main_call0_v4, val_main_call0_v4 (F := F) a8⟩ :: ⟨main_v3, val_main_v3 (F := F) a0 a2 a3⟩ :: args a0 a1 a2 a3 a4 a5 a6 a7 a8 a9) →
    Sat (after (List.take 11 (List.drop 16 (ops (F := F)))) V)
      (⟨main_v5, val_main_v5 (F := F) a0 a2 a3 a8⟩ :: ⟨main_v3, val_main_v3 (F := F) a0 a2 a3⟩ :: args a0 a1 a2 a3 a4 a5 a6 a7 a8 a9) := by
  refine step_lunary 1 (val_main_call0_c_1 (F := F)) (val_main_call0_v7 (F := F)) rfl rfl rfl ?_
  refine step_lunary 0 (val_main_call0_v7 (F := F)) (val_main_call0_v8 (F := F)) rfl rfl rfl ?_
  refine step_lbinary 4 0 (val_main_call0_v4 (F := F) a8) (val_main_call0_v8 (F := F)) (val_main_call0_v9 (F := F) a8) rfl rfl rfl rfl ?_
  refine step_lbinary 3 0 (val_main_call0_v6 (F := F) a8) (val_main_call0_v9 (F := F) a8) (val_main_call0_v10 (F := F) a8) rfl rfl rfl rfl ?_
  refine step_lnullary (val_main_call0_c_3 (F := F)) rfl rfl ?_
  refine step_lbinary 1 0 (val_main_call0_v10 (F := F) a8) (val_main_call0_c_3 (F := F)) (val_main_call0_v11 (F := F) a8) rfl rfl rfl rfl ?_
  refine step_lbinary 9 8 (val_main_v3 (F := F) a0 a2 a3) (val_main_call0_v4 (F := F) a8) (val_main_call0_v12 (F := F) a0 a2 a3 a8) rfl rfl rfl rfl ?_
  refine step_lunary 1 (val_main_call0_v11 (F := F) a8) (val_main_call0_v13 (F := F) a8) rfl rfl rfl ?_
  refine step_lnullary (val_main_call0_cst (F := F)) rfl rfl ?_
  refine step_lunary 0 (val_main_call0_cst (F := F)) (val_main_call0_v14 (F := F)) rfl rfl rfl ?_
  refine step_lternary 2 3 0 (val_main_call0_v13 (F := F) a8) (val_main_call0_v12 (F := F) a0 a2 a3 a8) (val_main_call0_v14 (F := F))
    (val_main_v5 (F := F) a0 a2 a3 a8) rfl rfl rfl rfl rfl ?_
  exact done [0, 14, 15, 16, 17, 18, 19, 20, 21, 22, 23, 24] rfl

/-- Operations 28 to 39: the destination words as a column, and the first half of the gather of the destination rows. -/
theorem stretch4 : ∀ V : Valuation τ sig (Elt F),
    Sat V (⟨main_v5, val_main_v5 (F := F) a0 a2 a3 a8⟩ :: ⟨main_v3, val_main_v3 (F := F) a0 a2 a3⟩ :: args a0 a1 a2 a3 a4 a5 a6 a7 a8 a9) →
    Sat (after (List.take 12 (List.drop 27 (ops (F := F)))) V)
      (⟨main_call1_v6, val_main_call1_v6 (F := F) a9⟩ :: ⟨main_call1_c_1, val_main_call1_c_1 (F := F)⟩
        :: ⟨main_call1_v4, val_main_call1_v4 (F := F) a9⟩ :: ⟨main_v5, val_main_v5 (F := F) a0 a2 a3 a8⟩
        :: ⟨main_v3, val_main_v3 (F := F) a0 a2 a3⟩ :: args a0 a1 a2 a3 a4 a5 a6 a7 a8 a9) := by
  refine step_unary 11 a9 (val_main_v6 (F := F) a9) rfl rfl rfl ?_
  refine step_lnullary (val_main_call1_c (F := F)) rfl rfl ?_
  refine step_lunary 0 (val_main_call1_c (F := F)) (val_main_call1_v0 (F := F)) rfl rfl rfl ?_
  refine step_lbinary 2 0 (val_main_v6 (F := F) a9) (val_main_call1_v0 (F := F)) (val_main_call1_v1 (F := F) a9) rfl rfl rfl rfl ?_
  refine step_lnullary (val_main_call1_c_0 (F := F)) rfl rfl ?_
  refine step_lunary 0 (val_main_call1_c_0 (F := F)) (val_main_call1_v2 (F := F)) rfl rfl rfl ?_
  refine step_lbinary 5 0 (val_main_v6 (F := F) a9) (val_main_call1_v2 (F := F)) (val_main_call1_v3 (F := F) a9) rfl rfl rfl rfl ?_
  refine step_lternary 3 0 6 (val_main_call1_v1 (F := F) a9) (val_main_call1_v3 (F := F) a9) (val_main_v6 (F := F) a9)
    (val_main_call1_v4 (F := F) a9) rfl rfl rfl rfl rfl ?_
  refine step_lnullary (val_main_call1_c_1 (F := F)) rfl rfl ?_
  refine step_lnullary (val_main_call1_c_2 (F := F)) rfl rfl ?_
  refine step_lunary 0 (val_main_call1_c_2 (F := F)) (val_main_call1_v5 (F := F)) rfl rfl rfl ?_
  refine step_lbinary 3 0 (val_main_call1_v4 (F := F) a9) (val_main_call1_v5 (F := F)) (val_main_call1_v6 (F := F) a9) rfl rfl rfl rfl ?_
  exact done [0, 3, 4, 12, 13, 14, 15, 16, 17, 18, 19, 20, 21, 22, 23] rfl

/-- Operations 40 to 50, the second half of the gather of the destination rows. -/
theorem stretch5 : ∀ V : Valuation τ sig (Elt F),
    Sat V (⟨main_call1_v6, val_main_call1_v6 (F := F) a9⟩ :: ⟨main_call1_c_1, val_main_call1_c_1 (F := F)⟩
        :: ⟨main_call1_v4, val_main_call1_v4 (F := F) a9⟩ :: ⟨main_v5, val_main_v5 (F := F) a0 a2 a3 a8⟩
        :: ⟨main_v3, val_main_v3 (F := F) a0 a2 a3⟩ :: args a0 a1 a2 a3 a4 a5 a6 a7 a8 a9) →
    Sat (after (List.take 11 (List.drop 39 (ops (F := F)))) V)
      (⟨main_v7, val_main_v7 (F := F) a0 a2 a3 a9⟩ :: ⟨main_v5, val_main_v5 (F := F) a0 a2 a3 a8⟩ :: args a0 a1 a2 a3 a4 a5 a6 a7 a8 a9) := by
  refine step_lunary 1 (val_main_call1_c_1 (F := F)) (val_main_call1_v7 (F := F)) rfl rfl rfl ?_
  refine step_lunary 0 (val_main_call1_v7 (F := F)) (val_main_call1_v8 (F := F)) rfl rfl rfl ?_
  refine step_lbinary 4 0 (val_main_call1_v4 (F := F) a9) (val_main_call1_v8 (F := F)) (val_main_call1_v9 (F := F) a9) rfl rfl rfl rfl ?_
  refine step_lbinary 3 0 (val_main_call1_v6 (F := F) a9) (val_main_call1_v9 (F := F) a9) (val_main_call1_v10 (F := F) a9) rfl rfl rfl rfl ?_
  refine step_lnullary (val_main_call1_c_3 (F := F)) rfl rfl ?_
  refine step_lbinary 1 0 (val_main_call1_v10 (F := F) a9) (val_main_call1_c_3 (F := F)) (val_main_call1_v11 (F := F) a9) rfl rfl rfl rfl ?_
  refine step_lbinary 10 8 (val_main_v3 (F := F) a0 a2 a3) (val_main_call1_v4 (F := F) a9) (val_main_call1_v12 (F := F) a0 a2 a3 a9) rfl rfl rfl rfl ?_
  refine step_lunary 1 (val_main_call1_v11 (F := F) a9) (val_main_call1_v13 (F := F) a9) rfl rfl rfl ?_
  refine step_lnullary (val_main_call1_cst (F := F)) rfl rfl ?_
  refine step_lunary 0 (val_main_call1_cst (F := F)) (val_main_call1_v14 (F := F)) rfl rfl rfl ?_
  refine step_lternary 2 3 0 (val_main_call1_v13 (F := F) a9) (val_main_call1_v12 (F := F) a0 a2 a3 a9) (val_main_call1_v14 (F := F))
    (val_main_v7 (F := F) a0 a2 a3 a9) rfl rfl rfl rfl rfl ?_
  exact done [0, 14, 16, 17, 18, 19, 20, 21, 22, 23, 24, 25] rfl

/-- Operations 51 to 58: the two gathered halves side by side, the first layer with its bias, and the rectifier. -/
theorem stretch6 : ∀ V : Valuation τ sig (Elt F),
    Sat V (⟨main_v7, val_main_v7 (F := F) a0 a2 a3 a9⟩ :: ⟨main_v5, val_main_v5 (F := F) a0 a2 a3 a8⟩ :: args a0 a1 a2 a3 a4 a5 a6 a7 a8 a9) →
    Sat (after (List.take 8 (List.drop 50 (ops (F := F)))) V)
      (⟨main_v13, val_main_v13 (F := F) a0 a2 a3 a4 a5 a8 a9⟩ :: args a0 a1 a2 a3 a4 a5 a6 a7 a8 a9) := by
  refine step_binary 1 0 (val_main_v5 (F := F) a0 a2 a3 a8) (val_main_v7 (F := F) a0 a2 a3 a9) (val_main_v8 (F := F) a0 a2 a3 a8 a9) rfl rfl rfl rfl ?_
  refine step_binary 0 7 (val_main_v8 (F := F) a0 a2 a3 a8 a9) a4 (val_main_v9 (F := F) a0 a2 a3 a4 a8 a9) rfl rfl rfl rfl ?_
  refine step_unary 9 a5 (val_main_v10 (F := F) a5) rfl rfl rfl ?_
  refine step_unary 0 (val_main_v10 (F := F) a5) (val_main_v11 (F := F) a5) rfl rfl rfl ?_
  refine step_binary 2 0 (val_main_v9 (F := F) a0 a2 a3 a4 a8 a9) (val_main_v11 (F := F) a5) (val_main_v12 (F := F) a0 a2 a3 a4 a5 a8 a9) rfl rfl rfl rfl ?_
  refine step_lnullary (val_main_call2_cst (F := F)) rfl rfl ?_
  refine step_lunary 0 (val_main_call2_cst (F := F)) (val_main_call2_v0 (F := F)) rfl rfl rfl ?_
  refine step_lbinary 2 0 (val_main_v12 (F := F) a0 a2 a3 a4 a5 a8 a9) (val_main_call2_v0 (F := F)) (val_main_v13 (F := F) a0 a2 a3 a4 a5 a8 a9) rfl rfl rfl rfl ?_
  exact done [0, 10, 11, 12, 13, 14, 15, 16, 17, 18, 19] rfl

/-- Operations 59 to 65: the second layer with its bias, its last two columns, and the result beside the first two
    columns of the second argument. -/
theorem stretch7 : ∀ V : Valuation τ sig (Elt F),
    Sat V (⟨main_v13, val_main_v13 (F := F) a0 a2 a3 a4 a5 a8 a9⟩ :: args a0 a1 a2 a3 a4 a5 a6 a7 a8 a9) →
    Sat (after (List.drop 58 (ops (F := F))) V) [⟨main_v20, val_main_v20 (F := F) a0 a1 a2 a3 a4 a5 a6 a7 a8 a9⟩] := by
  refine step_binary 0 7 (val_main_v13 (F := F) a0 a2 a3 a4 a5 a8 a9) a6 (val_main_v14 (F := F) a0 a2 a3 a4 a5 a6 a8 a9) rfl rfl rfl rfl ?_
  refine step_unary 9 a7 (val_main_v15 (F := F) a7) rfl rfl rfl ?_
  refine step_unary 0 (val_main_v15 (F := F) a7) (val_main_v16 (F := F) a7) rfl rfl rfl ?_
  refine step_binary 2 0 (val_main_v14 (F := F) a0 a2 a3 a4 a5 a6 a8 a9) (val_main_v16 (F := F) a7) (val_main_v17 (F := F) a0 a2 a3 a4 a5 a6 a7 a8 a9) rfl rfl rfl rfl ?_
  refine step_unary 6 a1 (val_main_v18 (F := F) a1) rfl rfl rfl ?_
  refine step_unary 1 (val_main_v17 (F := F) a0 a2 a3 a4 a5 a6 a7 a8 a9) (val_main_v19 (F := F) a0 a2 a3 a4 a5 a6 a7 a8 a9) rfl rfl rfl ?_
  refine step_binary 1 0 (val_main_v18 (F := F) a1) (val_main_v19 (F := F) a0 a2 a3 a4 a5 a6 a7 a8 a9) (val_main_v20 (F := F) a0 a1 a2 a3 a4 a5 a6 a7 a8 a9) rfl rfl rfl rfl ?_
  exact done [0] rfl

/-- The whole line is its seven stretches in a row. -/
theorem ops_split : (ops (F := F)) = List.take 5 ops ++ (List.take 11 (List.drop 5 ops) ++ (List.take 11 (List.drop 16 ops)
    ++ (List.take 12 (List.drop 27 ops) ++ (List.take 11 (List.drop 39 ops) ++ (List.take 8 (List.drop 50 ops)
    ++ List.drop 58 ops))))) := rfl

/-- After the whole line, from any valuation that holds the ten arguments, the result buffer holds the last stage. -/
theorem whole_line : ∀ V : Valuation τ sig (Elt F), Sat V (args a0 a1 a2 a3 a4 a5 a6 a7 a8 a9) →
    Sat (after (ops (F := F)) V) [⟨main_v20, val_main_v20 (F := F) a0 a1 a2 a3 a4 a5 a6 a7 a8 a9⟩] := by
  rw [ops_split]
  exact line_append (stretch1 a0 a1 a2 a3 a4 a5 a6 a7 a8 a9) (line_append (stretch2 a0 a1 a2 a3 a4 a5 a6 a7 a8 a9) (line_append (stretch3 a0 a1 a2 a3 a4 a5 a6 a7 a8 a9)
    (line_append (stretch4 a0 a1 a2 a3 a4 a5 a6 a7 a8 a9) (line_append (stretch5 a0 a1 a2 a3 a4 a5 a6 a7 a8 a9) (line_append (stretch6 a0 a1 a2 a3 a4 a5 a6 a7 a8 a9) (stretch7 a0 a1 a2 a3 a4 a5 a6 a7 a8 a9))))))

end Stretches

end Line

/-- The result buffer after the whole line is the last stage of the reference, as a function of the arguments. -/
theorem result_stage (m : (ℓ : Loc nD τ sig) → Buf (Elt F) ℓ) (c : Dev nD) :
    after (ops (F := F)) (launchContents m c) (Proc.devRef .tc main_v20)
      = Cert.ReferenceIdeal.ReadP.val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have hargs : HostLine.Sat (launchContents m c) (args (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))) :=
    HostLine.Sat.cons rfl (HostLine.Sat.cons rfl (HostLine.Sat.cons rfl (HostLine.Sat.cons rfl (HostLine.Sat.cons rfl (HostLine.Sat.cons rfl (HostLine.Sat.cons rfl (HostLine.Sat.cons rfl
      (HostLine.Sat.cons rfl (HostLine.Sat.cons rfl (HostLine.Sat.nil _))))))))))
  exact whole_line _ _ _ _ _ _ _ _ _ _ _ hargs ⟨main_v20, _⟩ (List.mem_singleton.2 rfl)

/-- The same against the composed term the run states. -/
theorem result_line (m : (ℓ : Loc nD τ sig) → Buf (Elt F) ℓ) (c : Dev nD) :
    after (ops (F := F)) (launchContents m c) (Proc.devRef .tc main_v20) = res_main_v20 m c :=
  (result_stage m c).trans (Cert.ReferenceIdeal.ReadP.val_main_v20_eq m c).symm

set_option maxRecDepth 8192 in
set_option maxHeartbeats 26000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = res_main_v20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v20).trans (result_line m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Line

end
-- ==== Proof.RefIsSpec.lean ====
/-
  The reference computes the specification.

  The reference embeds every node by one contraction over the 4 raw features, gathers the embedded rows of each edge's
  two end points, joins the two 64-feature rows into one of 128, applies the two-layer head, and joins columns 0 and 1
  of the line parameters with columns 2 and 3 of the head. Its gather first wraps a negative word by adding 2048 and
  masks a wrapped word outside [0, 2047] to a fill value; for a word already in [0, 2048) the wrap does nothing, the
  mask is set, and the gathered row is the node the word names. The contraction over the joined 128 features splits
  into the 64 source terms and the 64 destination terms, and each product is commuted to put the weight first.
-/
import proofs.«419284_j6141803233663_3_alg».proof.Proof.RefRead
import proofs.«419284_j6141803233663_3_alg».proof.Proof.EdgeSpec
import Idealize.ShloMosaic.Lib.Pipeline.Value
import Idealize.ShloMosaic.Lib.ValueLayout
import Idealize.ShloMosaic.Lib.ReduceAll
import Idealize.ShloMosaic.Lib.StableHlo.Predicate

noncomputable section

open scoped BigOperators

namespace Cert.EdgeHead

open Idealize.ShloMosaic Idealize.ShloMosaic.ValueIdx Cert.ReferenceIdeal Cert.ReferenceIdeal.ReadP

namespace RefStages

/-! ## Index words in range -/

/-- A word below 2048 is not negative, so the wrap (add 2048 to a negative word) leaves it alone. -/
theorem wrap_eq (w : BitVec 32) (h : w.toNat < 2048) :
    Scalar.select (IntOp.cmpi .slt w 0#32) (IntOp.addi w 2048#32) w = w := by
  have h0 : ¬ (IntOp.cmpi .slt w 0#32 = 1#1) := by
    rw [StableHlo.Predicate.slt_iff_toNat (by omega) (by decide)]
    simp
  exact if_neg h0

/-- A word below 2048 passes the range test 0 ≤ w ≤ 2047. -/
theorem mask_one (w : BitVec 32) (h : w.toNat < 2048) :
    IntOp.andi (IntOp.cmpi .sge w 0#32) (IntOp.cmpi .sle w 2047#32) = 1#1 := by
  have h1 : IntOp.cmpi .sge w 0#32 = 1#1 := (StableHlo.Predicate.sge_iff_toNat (by omega) (by decide)).2 (by simp)
  have h2 : IntOp.cmpi .sle w 2047#32 = 1#1 := (StableHlo.Predicate.sle_iff_toNat (by omega) (by decide)).2 (by
    show w.toNat ≤ 2047; omega)
  rw [h1, h2]; rfl

/-- Read signed and clamped into [0, 2047], a word below 2048 is its own value. -/
theorem clamp_eq (w : BitVec 32) (h : w.toNat < 2048) : min w.toInt.toNat 2047 = w.toNat := by
  have : w.toInt = w.toNat := BitVec.toInt_eq_toNat_of_lt (by omega)
  rw [this]; simp; omega

/-! ## The gather read at an index -/

/-- The reference's gather record: offset axis 2, collapsed axis 1, batching axis 0, start index map [1]. -/
abbrev G := gather_S32x2048x64_S32x32768x1_S32x32768x64_2_1_0_0_1_2_1164

/-- On the batching axis the operand index is the result's batch coordinate. -/
theorem G_coord0 (idx : IVec S32x32768x1 32) (b : Fin 32) (l : Fin 32768) (d : Fin 64) :
    G.start (ix3 b l d) idx 0 + G.batchCoord (ix3 b l d) 0 + G.offCoord (ix3 b l d) 0 = b.val := by
  rw [G.start_batching _ _ 0 (by decide), G.offCoord_eq_zero _ 0 (fun h => ((G.mem_sKept 0).1 h).2 (by decide))]
  unfold GatherDims.batchCoord
  rw [dif_pos (by decide)]
  simp only [Nat.zero_add, Nat.add_zero]
  rfl

/-- On the collapsed axis it is the start index at (b, l, 0), read signed and clamped into [0, 2047]. -/
theorem G_coord1 (idx : IVec S32x32768x1 32) (b : Fin 32) (l : Fin 32768) (d : Fin 64) :
    G.start (ix3 b l d) idx 1 + G.batchCoord (ix3 b l d) 1 + G.offCoord (ix3 b l d) 1
      = min (idx (ix3 b l 0)).toInt.toNat 2047 := by
  rw [G.batchCoord_eq_zero _ 1 (by decide), G.offCoord_eq_zero _ 1 (fun h => ((G.mem_sKept 1).1 h).1 (by decide))]
  unfold GatherDims.start
  rw [dif_pos (by decide)]
  simp only [Nat.add_zero]
  have hsi : G.siIdx (ix3 b l d) ⟨List.idxOf 1 G.startIndexMap, List.idxOf_lt_length_iff.2 (by decide)⟩ = ix3 b l 0 := by
    funext c; refine Fin.ext ?_
    match c with
    | ⟨0, _⟩ => rfl
    | ⟨1, _⟩ => rfl
    | ⟨2, _⟩ => rfl
  rw [hsi]
  rfl

/-- On the offset axis it is the result's feature coordinate. -/
theorem G_coord2 (idx : IVec S32x32768x1 32) (b : Fin 32) (l : Fin 32768) (d : Fin 64) :
    G.start (ix3 b l d) idx 2 + G.batchCoord (ix3 b l d) 2 + G.offCoord (ix3 b l d) 2 = d.val := by
  rw [G.batchCoord_eq_zero _ 2 (by decide)]
  unfold GatherDims.start GatherDims.offCoord
  rw [dif_neg (by decide), dif_pos (by decide)]
  simp only [Nat.zero_add, Nat.add_zero]
  rfl

/-- The reference's gather at (b, l, d): batch b of the operand, the row the start index at (b, l, 0) names (read
    signed and clamped into [0, 2047]), feature d. -/
theorem gather_row {α : Type} (x : S32x2048x64.Idx → α) (idx : IVec S32x32768x1 32) (b : Fin 32) (l : Fin 32768) (d : Fin 64) :
    Host.gather G x idx (ix3 b l d) = x (ix3 b ⟨min (idx (ix3 b l 0)).toInt.toNat 2047, by omega⟩ d) := by
  unfold Host.gather
  congr 1
  funext a
  refine Fin.ext ?_
  match a with
  | ⟨0, _⟩ => exact G_coord0 idx b l d
  | ⟨1, _⟩ => exact G_coord1 idx b l d
  | ⟨2, _⟩ => exact G_coord2 idx b l d

/-! ## The in-range mask -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduce by `and` from 1 of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

/-! ## The stages at an index -/

section Stages

variable (x0 : (⟨S32x2048x4, .f32⟩ : BufTy).Contents (Elt Ideal)) (x1 : (⟨S32x32768x4, .f32⟩ : BufTy).Contents (Elt Ideal))
  (x2 : (⟨S4x64, .f32⟩ : BufTy).Contents (Elt Ideal)) (x3 : (⟨S64, .f32⟩ : BufTy).Contents (Elt Ideal))
  (x4 : (⟨S128x64, .f32⟩ : BufTy).Contents (Elt Ideal)) (x5 : (⟨S64, .f32⟩ : BufTy).Contents (Elt Ideal))
  (x6 : (⟨S64x4, .f32⟩ : BufTy).Contents (Elt Ideal)) (x7 : (⟨S4, .f32⟩ : BufTy).Contents (Elt Ideal))
  (x8 x9 : (⟨S32x32768, .i32⟩ : BufTy).Contents (Elt Ideal))

/-- The embedding stage at (b, n, d) is the specification's feature. -/
theorem v3_feat (b : Fin 32) (n : Fin 2048) (d : Fin 64) :
    val_main_v3 (F := Ideal) x0 x2 x3 (ix3 b n d) = feat x0 x2 x3 b n d := by
  rw [val_main_v3_apply, val_main_v0_apply, val_main_v2_apply, val_main_v1_apply]
  have e1 : ∀ k : Fin 4, lidx_main_v0 (ix3 b n d) k = ix3 b n k := fun k => funext fun a => Fin.ext (by
    match a with | ⟨0, _⟩ => rfl | ⟨1, _⟩ => rfl | ⟨2, _⟩ => rfl)
  have e2 : ∀ k : Fin 4, ridx_main_v0 (ix3 b n d) k = ix2 k d := fun k => funext fun a => Fin.ext (by
    match a with | ⟨0, _⟩ => rfl | ⟨1, _⟩ => rfl)
  have e3 : idx_main_v1 (idx_main_v2 (ix3 b n d)) = ix1 d := funext fun a => Fin.ext (by
    match a with | ⟨0, _⟩ => rfl)
  simp only [e1, e2, e3]
  unfold feat
  rw [Ideal.addf_def]
  congr 1
  exact Finset.sum_congr rfl fun k _ => mul_comm _ _

/-- The wrapped source word is the word itself. -/
theorem call0_v4 (h8 : ∀ i, BitVec.toNat (x8 i) < 2048) (i : S32x32768x1.Idx) :
    val_main_call0_v4 (F := Ideal) x8 i = x8 (idx_main_v4 i) := by
  rw [val_main_call0_v4_apply, val_main_call0_v1_apply, val_main_call0_v3_apply, val_main_v4_apply,
    val_main_call0_v0_apply, val_main_call0_c_apply, val_main_call0_v2_apply, val_main_call0_c_0_apply]
  exact wrap_eq _ (h8 _)

/-- The source word's range test holds everywhere. -/
theorem call0_v10 (h8 : ∀ i, BitVec.toNat (x8 i) < 2048) (i : S32x32768x1.Idx) :
    val_main_call0_v10 (F := Ideal) x8 i = 1#1 := by
  rw [val_main_call0_v10_apply, val_main_call0_v6_apply, val_main_call0_v9_apply, call0_v4 x8 h8,
    val_main_call0_v5_apply, val_main_call0_c_2_apply, val_main_call0_v8_apply, val_main_call0_v7_apply,
    val_main_call0_c_1_apply]
  exact mask_one _ (h8 _)

/-- So the source's in-range mask is set everywhere. -/
theorem call0_v11 (h8 : ∀ i, BitVec.toNat (x8 i) < 2048) (j : S32x32768.Idx) :
    val_main_call0_v11 (F := Ideal) x8 j = 1#1 := by
  unfold val_main_call0_v11
  exact reduce_andi_one _ _ _ _ (call0_v10 x8 h8) (fun _ => rfl) j

/-- The row gathered for the source of edge (b, l) is the embedded row of the node the source word names. -/
theorem call0_v12 (h8 : ∀ i, BitVec.toNat (x8 i) < 2048) (b : Fin 32) (l : Fin 32768) (d : Fin 64) :
    val_main_call0_v12 (F := Ideal) x0 x2 x3 x8 (ix3 b l d) = feat x0 x2 x3 b (nodeOf (x8 (ix2 b l))) d := by
  unfold val_main_call0_v12
  rw [← v3_feat]
  refine (gather_row _ _ b l d).trans ?_
  congr 2
  refine Fin.ext ?_
  have e : idx_main_v4 (ix3 b l (0 : Fin 1)) = ix2 b l := funext fun a => Fin.ext (by
    match a with | ⟨0, _⟩ => rfl | ⟨1, _⟩ => rfl)
  show min (val_main_call0_v4 (F := Ideal) x8 (ix3 b l 0)).toInt.toNat 2047 = (nodeOf (x8 (ix2 b l))).val
  rw [call0_v4 x8 h8, e, clamp_eq _ (h8 _), nodeOf_val_of_lt (h8 _)]

/-- The source stage at (b, l, d): the mask is set, so the select keeps the gathered row. -/
theorem v5_feat (h8 : ∀ i, BitVec.toNat (x8 i) < 2048) (b : Fin 32) (l : Fin 32768) (d : Fin 64) :
    val_main_v5 (F := Ideal) x0 x2 x3 x8 (ix3 b l d) = feat x0 x2 x3 b (nodeOf (x8 (ix2 b l))) d := by
  rw [val_main_v5_apply, val_main_call0_v13_apply, call0_v11 x8 h8, select_one, call0_v12 x0 x2 x3 x8 h8]

/-- The destination's gather call is the source's, run on the destination words. -/
theorem v7_eq_v5 : val_main_v7 (F := Ideal) x0 x2 x3 x9 = val_main_v5 (F := Ideal) x0 x2 x3 x9 := rfl

/-- The destination stage at (b, l, d). -/
theorem v7_feat (h9 : ∀ i, BitVec.toNat (x9 i) < 2048) (b : Fin 32) (l : Fin 32768) (d : Fin 64) :
    val_main_v7 (F := Ideal) x0 x2 x3 x9 (ix3 b l d) = feat x0 x2 x3 b (nodeOf (x9 (ix2 b l))) d := by
  rw [v7_eq_v5]; exact v5_feat x0 x2 x3 x9 h9 b l d

/-- The joined row's first 64 features are the source's. -/
theorem v8_lo (b : Fin 32) (l : Fin 32768) (e : Fin 64) :
    val_main_v8 (F := Ideal) x0 x2 x3 x8 x9 (ix3 b l (loRow e)) = val_main_v5 (F := Ideal) x0 x2 x3 x8 (ix3 b l e) := by
  unfold val_main_v8
  exact concatenate_pair_apply_left (t := S32x32768x128) (s₁ := S32x32768x64) (s₂ := S32x32768x64) 2 _ _ _
    (ix3 b l (loRow e)) rfl (ix3 b l e) (fun c => by
    match c with
    | ⟨0, _⟩ => rfl
    | ⟨1, _⟩ => rfl
    | ⟨2, _⟩ => rfl)

/-- The joined row's last 64 features are the destination's. -/
theorem v8_hi (b : Fin 32) (l : Fin 32768) (e : Fin 64) :
    val_main_v8 (F := Ideal) x0 x2 x3 x8 x9 (ix3 b l (hiRow e)) = val_main_v7 (F := Ideal) x0 x2 x3 x9 (ix3 b l e) := by
  unfold val_main_v8
  exact concatenate_pair_apply_right (t := S32x32768x128) (s₁ := S32x32768x64) (s₂ := S32x32768x64) 2 _ _ _
    (ix3 b l (hiRow e)) rfl rfl (ix3 b l e)
    (fun c hc => by
      match c with
      | ⟨0, _⟩ => rfl
      | ⟨1, _⟩ => rfl
      | ⟨2, _⟩ => exact absurd rfl hc)
    (by show e.val + 64 = 64 + e.val; omega)

/-- The first layer's contraction over the joined 128 features, split into the source's 64 terms and the destination's. -/
theorem v9_split (h8 : ∀ i, BitVec.toNat (x8 i) < 2048) (h9 : ∀ i, BitVec.toNat (x9 i) < 2048)
    (b : Fin 32) (l : Fin 32768) (d : Fin 64) :
    val_main_v9 (F := Ideal) x0 x2 x3 x4 x8 x9 (ix3 b l d)
      = (∑ e : Fin 64, x4 (ix2 (loRow e) d) * feat x0 x2 x3 b (nodeOf (x8 (ix2 b l))) e)
        + (∑ e : Fin 64, x4 (ix2 (hiRow e) d) * feat x0 x2 x3 b (nodeOf (x9 (ix2 b l))) e) := by
  rw [val_main_v9_apply]
  have e1 : ∀ k : Fin 128, lidx_main_v9 (ix3 b l d) k = ix3 b l k := fun k => funext fun a => Fin.ext (by
    match a with | ⟨0, _⟩ => rfl | ⟨1, _⟩ => rfl | ⟨2, _⟩ => rfl)
  have e2 : ∀ k : Fin 128, ridx_main_v9 (ix3 b l d) k = ix2 k d := fun k => funext fun a => Fin.ext (by
    match a with | ⟨0, _⟩ => rfl | ⟨1, _⟩ => rfl)
  simp only [e1, e2]
  refine (Fin.sum_univ_add (a := 64) (b := 64) _).trans ?_
  refine congrArg₂ (· + ·) ?_ ?_
  · refine Finset.sum_congr rfl fun e _ => ?_
    rw [show Fin.castAdd 64 e = loRow e from rfl, v8_lo, v5_feat x0 x2 x3 x8 h8, mul_comm]
  · refine Finset.sum_congr rfl fun e _ => ?_
    rw [show Fin.natAdd 64 e = hiRow e from rfl, v8_hi, v7_feat x0 x2 x3 x9 h9, mul_comm]

/-- The hidden layer at (b, l, d): the bias added, the maximum with the zero constant taken. -/
theorem v13_hid (h8 : ∀ i, BitVec.toNat (x8 i) < 2048) (h9 : ∀ i, BitVec.toNat (x9 i) < 2048)
    (b : Fin 32) (l : Fin 32768) (d : Fin 64) :
    val_main_v13 (F := Ideal) x0 x2 x3 x4 x5 x8 x9 (ix3 b l d)
      = hid x4 x5 (feat x0 x2 x3 b (nodeOf (x8 (ix2 b l)))) (feat x0 x2 x3 b (nodeOf (x9 (ix2 b l)))) d := by
  rw [val_main_v13_apply, val_main_v12_apply, v9_split x0 x2 x3 x4 x8 x9 h8 h9, val_main_v11_apply, val_main_v10_apply,
    val_main_call2_v0_apply, val_main_call2_cst_apply]
  have e3 : idx_main_v10 (idx_main_v11 (ix3 b l d)) = ix1 d := funext fun a => Fin.ext (by
    match a with | ⟨0, _⟩ => rfl)
  rw [e3, Ideal.maximumf_def, Ideal.addf_def, Ideal.ofBits_def, Ideal.ofBits_zero_f32]
  rfl

/-- The head's output at (b, l, o). -/
theorem v17_head (h8 : ∀ i, BitVec.toNat (x8 i) < 2048) (h9 : ∀ i, BitVec.toNat (x9 i) < 2048)
    (b : Fin 32) (l : Fin 32768) (o : Fin 4) :
    val_main_v17 (F := Ideal) x0 x2 x3 x4 x5 x6 x7 x8 x9 (ix3 b l o)
      = headOut x6 x7 (hid x4 x5 (feat x0 x2 x3 b (nodeOf (x8 (ix2 b l)))) (feat x0 x2 x3 b (nodeOf (x9 (ix2 b l))))) o := by
  rw [val_main_v17_apply, val_main_v14_apply, val_main_v16_apply, val_main_v15_apply]
  have e1 : ∀ k : Fin 64, lidx_main_v14 (ix3 b l o) k = ix3 b l k := fun k => funext fun a => Fin.ext (by
    match a with | ⟨0, _⟩ => rfl | ⟨1, _⟩ => rfl | ⟨2, _⟩ => rfl)
  have e2 : ∀ k : Fin 64, ridx_main_v14 (ix3 b l o) k = ix2 k o := fun k => funext fun a => Fin.ext (by
    match a with | ⟨0, _⟩ => rfl | ⟨1, _⟩ => rfl)
  have e3 : idx_main_v15 (idx_main_v16 (ix3 b l o)) = ix1 o := funext fun a => Fin.ext (by
    match a with | ⟨0, _⟩ => rfl)
  simp only [e1, e2, e3]
  unfold headOut
  rw [Ideal.addf_def]
  refine congrArg (· + x7 (ix1 o)) ?_
  refine Finset.sum_congr rfl fun k _ => ?_
  rw [v13_hid x0 x2 x3 x4 x5 x8 x9 h8 h9, mul_comm]

end Stages

end RefStages

open RefStages in
/-- Under the two index ranges the reference's last stage is the specification. -/
theorem ref_is_spec (x0 : (⟨S32x2048x4, .f32⟩ : BufTy).Contents (Elt Ideal)) (x1 : (⟨S32x32768x4, .f32⟩ : BufTy).Contents (Elt Ideal))
    (x2 : (⟨S4x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal))
    (x6 : (⟨S64x4, .f32⟩ : BufTy).Contents (Elt Ideal)) (x7 : (⟨S4, .f32⟩ : BufTy).Contents (Elt Ideal))
    (x8 x9 : (⟨S32x32768, .i32⟩ : BufTy).Contents (Elt Ideal))
    (h8 : ∀ i, BitVec.toNat (x8 i) < 2048) (h9 : ∀ i, BitVec.toNat (x9 i) < 2048) :
    val_main_v20 (F := Ideal) x0 x1 x2 x3 x4 x5 x6 x7 x8 x9 = result x0 x1 x2 x3 x4 x5 x6 x7 x8 x9 := by
  funext i
  obtain ⟨b, l, o, rfl⟩ : ∃ (b : Fin 32) (l : Fin 32768) (o : Fin 4), i = ix3 b l o := ⟨i 0, i 1, i 2, eq_ix3 i⟩
  rw [result_ix3]
  unfold outAt val_main_v20
  by_cases ho : o.val < 2
  · -- columns 0 and 1: the left piece, the slice of the line parameters
    rw [if_pos ho]
    refine (concatenate_pair_apply_left (t := S32x32768x4) (s₁ := S32x32768x2) (s₂ := S32x32768x2) 2 _ _ _
      (ix3 b l o) rfl (ix3 b l (⟨o.val, ho⟩ : Fin 2)) (fun c => by
        match c with
        | ⟨0, _⟩ => rfl
        | ⟨1, _⟩ => rfl
        | ⟨2, _⟩ => rfl)).trans ?_
    rw [val_main_v18_apply]
    have e : idx_main_v18 (ix3 b l (⟨o.val, ho⟩ : Fin 2)) = ix3 b l o := funext fun a => Fin.ext (by
      match a with | ⟨0, _⟩ => rfl | ⟨1, _⟩ => rfl | ⟨2, _⟩ => rfl)
    rw [e]
  · -- columns 2 and 3: the right piece, the slice of the head's output
    rw [if_neg ho]
    have ho2 : o.val - 2 < 2 := by have := o.isLt; omega
    refine (concatenate_pair_apply_right (t := S32x32768x4) (s₁ := S32x32768x2) (s₂ := S32x32768x2) 2 _ _ _
      (ix3 b l o) rfl rfl (ix3 b l (⟨o.val - 2, ho2⟩ : Fin 2))
      (fun c hc => by
        match c with
        | ⟨0, _⟩ => rfl
        | ⟨1, _⟩ => rfl
        | ⟨2, _⟩ => exact absurd rfl hc)
      (by show (o.val - 2) + 2 = o.val; omega)).trans ?_
    rw [val_main_v19_apply]
    have e : idx_main_v19 (ix3 b l (⟨o.val - 2, ho2⟩ : Fin 2)) = ix3 b l o := funext fun a => Fin.ext (by
      match a with
      | ⟨0, _⟩ => rfl
      | ⟨1, _⟩ => rfl
      | ⟨2, _⟩ => show 2 + (o.val - 2) = o.val; omega)
    rw [e]
    exact v17_head x0 x2 x3 x4 x5 x6 x7 x8 x9 h8 h9 b l o

end Cert.EdgeHead

end
-- ==== Proof.InputFacts.lean ====
/-
  What the precondition says about the inputs the proof reads.

  The precondition is one bit: the conjunction of "every entry has magnitude below +inf" over the eight float arrays
  and "every word is at least 0 and below 2048, signed" over the two index arrays, each taken over the whole array.
  From that bit being 1: every entry of the node features, the embedding weight and the embedding bias is a real
  number (an extended real with magnitude below +inf is neither infinity), and every index word, read unsigned, is
  below 2048 (a word that is non-negative signed and below 2048 signed).
-/
import proofs.«419284_j6141803233663_3_alg».proof.Proof.Gen.Pre_finite_inputs
import proofs.«419284_j6141803233663_3_alg».proof.Proof.EdgeSpec
import Idealize.ShloMosaic.Lib.ReduceAll
import Idealize.ShloMosaic.Lib.StableHlo.Predicate

noncomputable section

namespace Cert.EdgeHead

open Idealize.ShloMosaic Idealize.ShloMosaic.ValueIdx Cert.Pre_finite_inputs

namespace InputFacts

/-- The f32 pattern with an all-ones exponent and a zero significand denotes +inf. -/
theorem inf_pattern : Ideal.ofBits .f32 0x7F800000#32 = (⊤ : EReal) := by
  simp [Ideal.ofBits, Ideal.ieee]

/-- An extended real whose magnitude max a (-a) is strictly below +inf is neither infinity, so it is a real:
    at a = +inf the magnitude is +inf, and at a = -inf it is -(-inf) = +inf. -/
theorem isReal_of_abs_lt_inf (a : EReal)
    (h : Ideal.cmp .olt (max a (-a)) (Ideal.ofBits .f32 0x7F800000#32) = 1#1) : IsReal a := by
  rw [inf_pattern] at h
  simp only [Ideal.cmp, StableHlo.Predicate.ofBool_eq_one_iff, decide_eq_true_eq] at h
  induction a using EReal.rec with
  | bot => simp at h
  | coe r => exact ⟨r, rfl⟩
  | top => simp at h

/-- A 32-bit word that is at least 0 and below 2048, both read signed, has unsigned value below 2048: being
    non-negative signed its top bit is clear, so its signed and unsigned readings are the same number. -/
theorem toNat_lt_of_cmp (w : BitVec 32) (h1 : IntOp.cmpi .sge w 0#32 = 1#1) (h2 : IntOp.cmpi .slt w 2048#32 = 1#1) :
    w.toNat < 2048 := by
  rw [IntOp.cmpi_sge] at h1
  rw [IntOp.cmpi_slt] at h2
  have e0 : (0#32 : BitVec 32).toInt = 0 := by decide
  have e1 : (2048#32 : BitVec 32).toInt = 2048 := by decide
  rw [e0] at h1
  rw [e1] at h2
  have hw := w.isLt
  rw [BitVec.toInt] at h1 h2
  split at h1 <;> split at h2 <;> omega

end InputFacts

open InputFacts

/-- The five facts the proof uses, from the precondition bit. -/
theorem facts_of_pre (x0 : FVec Ideal S32x2048x4 .f32) (x1 : FVec Ideal S32x32768x4 .f32) (x2 : FVec Ideal S4x64 .f32) (x3 : FVec Ideal S64 .f32)
    (x4 : FVec Ideal S128x64 .f32) (x5 : FVec Ideal S64 .f32) (x6 : FVec Ideal S64x4 .f32) (x7 : FVec Ideal S4 .f32)
    (x8 x9 : IVec S32x32768 32)
    (h : Cert.Pre_finite_inputs.fn (F := Ideal) x0 x1 x2 x3 x4 x5 x6 x7 x8 x9 = fun _ => 1#1) :
    (∀ i, IsReal (x0 i)) ∧ (∀ i, IsReal (x2 i)) ∧ (∀ i, IsReal (x3 i))
      ∧ (∀ i, (x8 i).toNat < 2048) ∧ (∀ i, (x9 i).toNat < 2048) := by
  -- the result of a reduction over every axis has exactly one index
  haveI : Subsingleton S_.Idx := ⟨fun a b => funext fun d => d.elim0⟩
  -- the bit at its one index, with the printed chain of operations in view
  have h0 := congrFun h ValueIdx.ix0
  unfold Cert.Pre_finite_inputs.fn Cert.Pre_finite_inputs.fn_part1 Cert.Pre_finite_inputs.fn_part2
    Cert.Pre_finite_inputs.fn_part3 at h0
  dsimp only at h0
  -- the conjunction is nested to the left: peel the ten whole-array bits off from the right
  obtain ⟨h0, a9⟩ := IntOp.andi_eq_one.1 h0
  obtain ⟨h0, a8⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, a3⟩ := IntOp.andi_eq_one.1 h0
  obtain ⟨h0, a2⟩ := IntOp.andi_eq_one.1 h0
  obtain ⟨a0, -⟩ := IntOp.andi_eq_one.1 h0
  refine ⟨fun i => ?_, fun i => ?_, fun i => ?_, fun i => ?_, fun i => ?_⟩
  · -- a whole-array conjunction that is 1 had a 1 at every entry; the entry's bit says |x0 i| < +inf
    exact isReal_of_abs_lt_inf (x0 i) (Host.reduce_andi_all _ _ _ _ _ a0 i)
  · exact isReal_of_abs_lt_inf (x2 i) (Host.reduce_andi_all _ _ _ _ _ a2 i)
  · exact isReal_of_abs_lt_inf (x3 i) (Host.reduce_andi_all _ _ _ _ _ a3 i)
  · -- the entry's bit is the conjunction of the two signed comparisons of the word
    obtain ⟨c1, c2⟩ := IntOp.andi_eq_one.1 (Host.reduce_andi_all _ _ _ _ _ a8 i)
    exact toNat_lt_of_cmp (x8 i) c1 c2
  · obtain ⟨c1, c2⟩ := IntOp.andi_eq_one.1 (Host.reduce_andi_all _ _ _ _ _ a9 i)
    exact toNat_lt_of_cmp (x9 i) c1 c2

end Cert.EdgeHead

end
-- ==== Proof.lean ====
/-
  An edge-scoring head over embedded graph nodes: the kernel against its reference, over the extended reals.

  Both programs embed the 2048 nodes of each of 32 graphs into 64 features by one affine map, gather the embedded
  rows of each of 32768 edges' two end points, score the pair with a two-layer head whose first layer splits into
  a source half and a destination half, and return columns 0 and 1 of the line parameters beside columns 2 and 3 of
  the head (Proof/EdgeSpec.lean states that function once).

  The kernel clamps an index word to [0, 2047] where the reference wraps a negative word and fills an out-of-range
  read; the precondition keeps both index arrays in [0, 2048), where the three agree. The kernel gathers by a
  one-hot matrix product and carries each graph's embedding across the graph's 16 edge tiles as a rounded half and
  a rounding-error half; over the extended reals a change of format is the identity, so the first half is the
  embedding and the second is the embedding minus itself, which is zero because the inputs, and with them the
  embedding, are real numbers. That is the one place the finiteness of the inputs is used.

  The claims: the two kernel programs' frames are the generated frame certificates; the reference's frame is its run
  with the result dropped; the kernel's idealization removed one bf16 round trip, whose statement is the rule's own;
  and the two idealized programs end at one array, the specification of the arguments they agree on.
-/
import proofs.«419284_j6141803233663_3_alg».proof.Defs
import proofs.«419284_j6141803233663_3_alg».proof.Proof.Gen.Kernel
import proofs.«419284_j6141803233663_3_alg».proof.Proof.Gen.Kernel.Frame
import proofs.«419284_j6141803233663_3_alg».proof.Proof.Gen.KernelIdeal
import proofs.«419284_j6141803233663_3_alg».proof.Proof.Gen.KernelIdeal.Frame
import proofs.«419284_j6141803233663_3_alg».proof.Proof.Gen.ReferenceIdeal
import proofs.«419284_j6141803233663_3_alg».proof.Proof.Gen.Pre_finite_inputs
import proofs.«419284_j6141803233663_3_alg».proof.Proof.Whole
import proofs.«419284_j6141803233663_3_alg».proof.Proof.RefLine
import proofs.«419284_j6141803233663_3_alg».proof.Proof.RefIsSpec
import proofs.«419284_j6141803233663_3_alg».proof.Proof.InputFacts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Line.run (F := Ideal) m ρ)

/-- The one rewrite of the idealization: widening a value just rounded to the short format gives the value back. -/
theorem preserves : Cert.preserves_Kernel_KernelIdeal :=
  IdealRules.truncf_extf.statement _ .f32 .bf16

/-- What the precondition gives on every core: the embedding's inputs are real numbers and the index words are in
    range. -/
theorem inputs_ok (m : (ℓ : Loc Cert.KernelIdeal.nD Cert.KernelIdeal.τ Cert.KernelIdeal.sig) → Buf (Elt Ideal) ℓ)
    (h : Cert.Pre_KernelIdeal m) (c : Dev Cert.KernelIdeal.nD) : Cert.EdgeHead.InputsOk m c := by
  obtain ⟨h0, h2, h3, h8, h9⟩ := Cert.EdgeHead.facts_of_pre _ _ _ _ _ _ _ _ _ _ (h c)
  exact ⟨h0, h2, h3, h8, h9⟩

/-- The kernel's run ends at the specification of its arguments (the whole-array post of the frame run), the
    reference's run at its last stage, which is the specification of the same arguments. -/
theorem algebraic : Cert.algebraic_KernelIdeal_ReferenceIdeal := by
  intro m ρ m' ρ' hpre hagree
  have hok := inputs_ok m hpre
  refine ⟨fun c => Cert.EdgeHead.resultOf m c, Cert.EdgeHead.kernel_run m ρ hok, ?_⟩
  refine (θ_run Cert.ReferenceIdeal.defs _ _).mono (fun _ h c => ⟨(h c).1.trans ?_, (h c).2⟩)
    (Cert.ReferenceIdeal.Line.run (F := Ideal) m' ρ')
  obtain ⟨e0, e1, e2, e3, e4, e5, e6, e7, e8, e9⟩ := hagree c
  rw [Cert.ReferenceIdeal.ReadP.val_main_v20_eq, e0, e1, e2, e3, e4, e5, e6, e7, e8, e9]
  exact Cert.EdgeHead.ref_is_spec _ _ _ _ _ _ _ _ _ _ (hok c).src (hok c).dst

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
